-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_arg8 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S1200000 32) (main_arg2 : IVec S1200000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1x64 : Shape := ⟨2, ![1, 64]⟩
abbrev S1200000x64 : Shape := ⟨2, ![1200000, 64]⟩
abbrev S4000x64 : Shape := ⟨2, ![4000, 64]⟩

abbrev nBuf : Space → Nat
  | .hbm => 58
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S_, .f32⟩
  | .hbm, ⟨10, _⟩ => ⟨S1200000, .f32⟩
  | .hbm, ⟨11, _⟩ => ⟨S_, .f32⟩
  | .hbm, ⟨12, _⟩ => ⟨S100000, .f32⟩
  | .hbm, ⟨13, _⟩ => ⟨S1200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S1x64, .f32⟩
  | .hbm, ⟨23, _⟩ => ⟨S1x64, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x64, .f32⟩
  | .hbm, ⟨33, _⟩ => ⟨S_, .f32⟩
  | .hbm, ⟨34, _⟩ => ⟨S100000x64, .f32⟩
  | .hbm, ⟨35, _⟩ => ⟨S1200000x1, .i32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .f32⟩
  | .hbm, ⟨50, _⟩ => ⟨S_, .f32⟩
  | .hbm, ⟨51, _⟩ => ⟨S100000x64, .f32⟩
  | .hbm, ⟨52, _⟩ => ⟨S1200000x1, .i32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36_0 : Ref sig .tc := ⟨.hbm, 56, rfl⟩
abbrev main_v36_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  shapeCasts_S64_S1x64 : S64.ShapeCasts S1x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S100000x64.size a
  hwx0_7 : ∀ i : grid0.Coords, EltTy.bits .f32 = 32 ∨ (Rect.block (s := S100000x64) S4000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S100000x64.size a
  hwx1_7 : ∀ i : grid1.Coords, EltTy.bits .f32 = 32 ∨ (Rect.block (s := S100000x64) S4000x64.size (cc1_transform_7 i) (hinb1_7 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23_0) S4000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23_1) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v23_0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23_1) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36_0) S4000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v36_1) S4000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x64, .f32⟩
  | .hbm, ⟨18, _⟩ => ⟨S_, .f32⟩
  | .hbm, ⟨19, _⟩ => ⟨S100000x64, .f32⟩
  | .hbm, ⟨20, _⟩ => ⟨S1200000x1, .i32⟩
  | .hbm, ⟨21, _⟩ => ⟨S100000x64, .f32⟩
  | .hbm, ⟨22, _⟩ => ⟨S_, .f32⟩
  | .hbm, ⟨23, _⟩ => ⟨S1200000, .f32⟩
  | .hbm, ⟨24, _⟩ => ⟨S_, .f32⟩
  | .hbm, ⟨25, _⟩ => ⟨S100000, .f32⟩
  | .hbm, ⟨26, _⟩ => ⟨S1200000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1200000, .i32⟩
  | .hbm, ⟨46, _⟩ => ⟨S1200000, .i1⟩
  | .hbm, ⟨47, _⟩ => ⟨S_, .i32⟩
  | .hbm, ⟨48, _⟩ => ⟨S1200000, .i32⟩
  | .hbm, ⟨49, _⟩ => ⟨S1200000, .i32⟩
  | .hbm, ⟨50, _⟩ => ⟨S1200000, .i32⟩
  | .hbm, ⟨51, _⟩ => ⟨S1200000x1, .i32⟩
  | .hbm, ⟨52, _⟩ => ⟨S1200000x64, .f32⟩
  | .hbm, ⟨53, _⟩ => ⟨S_, .f32⟩
  | .hbm, ⟨54, _⟩ => ⟨S100000x64, .f32⟩
  | .hbm, ⟨55, _⟩ => ⟨S1200000x1, .i32⟩
  | .hbm, ⟨56, _⟩ => ⟨S100000x64, .f32⟩
  | .hbm, ⟨57, _⟩ => ⟨S_, .f32⟩
  | .hbm, ⟨58, _⟩ => ⟨S1200000, .f32⟩
  | .hbm, ⟨59, _⟩ => ⟨S_, .f32⟩
  | .hbm, ⟨60, _⟩ => ⟨S100000, .f32⟩
  | .hbm, ⟨61, _⟩ => ⟨S1200000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Ideal.CombineA.lean ====
/-
  The first layer's combine kernel as a pipelined region, at any float instance `F` and at any contents `V` of the
  TensorCore's buffers when the region is entered.

  The kernel has eight windows over a grid of 25 row blocks of 4000 rows: the node features (window 0), the
  neighbourhood means (1) and the running residual (2), each a 4000×64 row block at block row `t`; the two 64×64
  weight matrices (3, 5) and the 1×64 bias row (4), whole at every point; and two outputs, the layer's features (6)
  and the updated residual (7), again the row block at `t`. Its body loads the six input blocks whole, stores
  `pay1 = (x₀·W₃ + x₁·W₅) + b₄` into window 6 whole and `pay2 = x₂ + pay1·s` into window 7 whole (the loads of the
  two output buffers that precede the stores are dead).

  Here: each window's block at a point read off the entry contents (`iblk0`); that an input window's staging buffer
  holds that block at every point, fetched there or not; what the body leaves in each output buffer, as the canon of
  its one whole store (`out0_6`, `out0_7`); the body's triple; the proof data and the body obligation at every point.
-/
import proofs.«165216_j71700184039591_1_alg».proof.Proof.Gen.KernelIdeal.Launch
import proofs.«165216_j71700184039591_1_alg».proof.Proof.Gen.KernelIdeal.Skeleton
import proofs.«165216_j71700184039591_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    point has the block index of the point before, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    point has the block index of the point before, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    point has the block index of the point before, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched
    point has the block index of the point before, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: an unfetched
    point has the block index of the point before, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: an unfetched
    point has the block index of the point before, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rN0 : Rect S4000x64 := Rect.unit (s := S4000x64) ![0, 0] S4000x64.size inb_S4000x64_S4000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-! ## What the body leaves in each output window's buffer -/

/-- Window 6 after the body: its one whole store of `pay1` of the loaded blocks. -/
def out0_6 (x0 x1 : Vec F S4000x64 .f32) (x3 : Vec F S64x64 .f32) (x4 : Vec F S1x64 .f32) (x5 : Vec F S64x64 .f32) : Vec F S4000x64 .f32 :=
  View.canon [⟨rN0, k0_pay1 (View.ld x0 rN0) (View.ld x1 rN0) (View.ld x3 rW0) (View.ld x5 rW0) (View.ld x4 rB0)⟩]

/-- Window 7 after the body: its one whole store of `pay2` of the loaded blocks. -/
def out0_7 (x0 x1 x2 : Vec F S4000x64 .f32) (x3 : Vec F S64x64 .f32) (x4 : Vec F S1x64 .f32) (x5 : Vec F S64x64 .f32) : Vec F S4000x64 .f32 :=
  View.canon [⟨rN0, k0_pay2 (View.ld x0 rN0) (View.ld x1 rN0) (View.ld x3 rW0) (View.ld x5 rW0) (View.ld x4 rB0) (View.ld x2 rN0)⟩]

/-- One whole store covers the buffer. -/
theorem cover0 (p0 : Vec F S4000x64 .f32) (y : S4000x64.Idx) :
    ∃ pc ∈ ([⟨rN0, p0⟩] : List (View.Piece (Elt F) S4000x64 .f32)), y ∈ pc.1.set :=
  View.cover_of_tiled [⟨rN0, p0⟩] S4000x64.size (by rfl) y

/-! ## The body's triple -/

set_option maxHeartbeats 4000000 in
/-- The body on whole staging memrefs, the six inputs' at contents `xW` and the two outputs' at anything, runs to the
    continuation holding the inputs' as they were and each output's at `out0_W` of the inputs'. -/
theorem sound_kernel0 (c : Dev nD) (E : Set ℕ) (i : grid0.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S4000x64 .f32) (harg7 : arg7.IsWhole) (arg8 : Memref sig .tc .vmem S4000x64 .f32) (harg8 : arg8.IsWhole)
    (x0 x1 x2 : Vec F S4000x64 .f32) (x3 : Vec F S64x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x3 x4 x5) ∗ owns (c : Thread nD τ) arg8 fullShare (out0_7 x0 x1 x2 x3 x4 x5)) -∗ K ⟨⟩))
      ⊢ wp frame (wpE (defs₀ (F := F)) Variants.none c none) E (cc0__combine_kernel i arg1 harg1 arg2 harg2 arg3 harg3 arg4 harg4 arg5 harg5 arg6 harg6 arg7 harg7 arg8 harg8) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- The proof data of this pipeline on core `c`: the arrays as the region finds them; after the body at point `t` each
    input's buffer at its block and each output's at `out0_W` of the input blocks; the invariant the scoped rest and the
    generator register, untouched; nothing owed. Where two input windows read ONE array (the node features enter the
    network's opening layer both as its features and as its residual), each window holds one half of that array; every
    other array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q w := match w with | ⟨0, _⟩ => fullShare.left | ⟨1, _⟩ => fullShare | ⟨2, _⟩ => fullShare.right | ⟨3, _⟩ => fullShare | ⟨4, _⟩ => fullShare | ⟨5, _⟩ => fullShare | ⟨6, _⟩ => fullShare | ⟨7, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.MainRun.lean ====
/-
  The whole program run from its launch memory, at any float instance: two stretches of host operations and the two
  combine kernels as pipelined regions, in order.

  Between two items every unscoped buffer of the TensorCore is held whole at contents that are named: the launch
  memory, then what the first host stretch computes from it (`W1`), then the same with the first kernel's two output
  arrays at what its write-backs leave (`W2`), then what the second host stretch computes from that (`W3`), then the
  second kernel's two output arrays at what its write-backs leave (`W4`). Beside them rides the core's generator
  register at some state and its dues, none.

  The first kernel is handed ONE array, the node features, through two of its input windows (as the layer's features
  and as the residual entering it). Each window holds one half of that array while the kernel runs: the halves are
  split off the whole array when the region is entered and joined again when it is left; the kernel writes neither.
-/
import proofs.«165216_j71700184039591_1_alg».proof.Proof.Ideal.CombineA
import proofs.«165216_j71700184039591_1_alg».proof.Proof.Ideal.CombineB
import proofs.«165216_j71700184039591_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the first kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first kernel's exit: its two output arrays at what its write-backs leave, every other buffer as entered. -/
def W2 (c : Dev nD) : Valuation τ sig (Elt F) :=
  Function.update (Function.update (W1 m c) main_v23_0 ((dat0 (V1 m) c).arrAt 6 cfg0.N)) main_v23_1 ((dat0 (V1 m) c).arrAt 7 cfg0.N)
abbrev V2 : (c : Dev nD) → (b : Ref sig .tc) → Buf (Elt F) ((c : Thread nD τ).loc b) := fun c b => W2 m c b
/-- After the second host stretch (the second kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second kernel's exit: its arrays at what the pipeline leaves (the inputs as entered, each output's write-backs
    folded), every other buffer as entered. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b

theorem W2_v23_0 (c : Dev nD) : W2 m c main_v23_0 = (dat0 (V1 m) c).arrAt 6 cfg0.N := by
  unfold W2; rw [Function.update_of_ne (by decide), Function.update_self]
theorem W2_v23_1 (c : Dev nD) : W2 m c main_v23_1 = (dat0 (V1 m) c).arrAt 7 cfg0.N := by
  unfold W2; rw [Function.update_self]
theorem W2_of_ne (c : Dev nD) (b : Ref sig .tc) (h0 : b ≠ main_v23_0) (h1 : b ≠ main_v23_1) : W2 m c b = W1 m c b := by
  unfold W2
  rw [Function.update_of_ne (StableHlo.devRef_ne_of_ne h1), Function.update_of_ne (StableHlo.devRef_ne_of_ne h0)]
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_v36_1 (c : Dev nD) : W4 m c main_v36_1 = (dat1 (V3 m) c).arrAt 7 cfg1.N := W4_arr m c 7

/-! ## The first kernel's arrays: seven buffers behind eight windows -/

section SharedArray

variable (c : Dev nD) (V : (b : Ref sig .tc) → Buf (Elt F) ((c : Thread nD τ).loc b))

/-- The distinct buffers behind the first kernel's eight windows. -/
theorem arrImage0 : Finset.univ.image (Pipeline.arrRef spec0)
    = ({main_arg0, main_v22, main_arg3, main_v9, main_arg5, main_v23_0, main_v23_1} : Finset (Ref sig .tc)) := by decide

/-- Those seven buffers, each whole at `V`, one by one. -/
theorem arrBufs0_eq : (Pipeline.arrBufs spec0 c V : sProp 𝕄)
    = iprop((((c : Thread nD τ).loc main_arg0) ↦{fullShare} V main_arg0) ∗ (((c : Thread nD τ).loc main_v22) ↦{fullShare} V main_v22)
        ∗ (((c : Thread nD τ).loc main_arg3) ↦{fullShare} V main_arg3) ∗ (((c : Thread nD τ).loc main_v9) ↦{fullShare} V main_v9)
        ∗ (((c : Thread nD τ).loc main_arg5) ↦{fullShare} V main_arg5) ∗ (((c : Thread nD τ).loc main_v23_0) ↦{fullShare} V main_v23_0)
        ∗ (((c : Thread nD τ).loc main_v23_1) ↦{fullShare} V main_v23_1)) := by
  unfold Pipeline.arrBufs
  rw [arrImage0, bigSep_insert (by decide), bigSep_insert (by decide), bigSep_insert (by decide), bigSep_insert (by decide),
    bigSep_insert (by decide), bigSep_insert (by decide), BI.bigSep_singleton]
  rfl

/-- The pipeline's arrays at contents `Fa`, window by window: the node features' buffer appears twice, at the two
    halves. -/
theorem arrays0_eq (dV : (c : Dev nD) → (b : Ref sig .tc) → Buf (Elt F) ((c : Thread nD τ).loc b))
    (Fa : (w : Fin cfg0.W) → Buf (Elt F) ((cfg0.win w).arr.view.loc (c : Thread nD τ))) :
    ((dat0 dV c).arrays Fa : sProp 𝕄)
      = iprop((((c : Thread nD τ).loc main_arg0) ↦{fullShare.left} Fa 0) ∗ (((c : Thread nD τ).loc main_v22) ↦{fullShare} Fa 1)
        ∗ (((c : Thread nD τ).loc main_arg0) ↦{fullShare.right} Fa 2) ∗ (((c : Thread nD τ).loc main_arg3) ↦{fullShare} Fa 3)
        ∗ (((c : Thread nD τ).loc main_v9) ↦{fullShare} Fa 4) ∗ (((c : Thread nD τ).loc main_arg5) ↦{fullShare} Fa 5)
        ∗ (((c : Thread nD τ).loc main_v23_0) ↦{fullShare} Fa 6) ∗ (((c : Thread nD τ).loc main_v23_1) ↦{fullShare} Fa 7)) := by
  unfold Dat.arrays
  rw [bigSep_W0, (arr_whole0 0).set_eq_univ, (arr_whole0 1).set_eq_univ, (arr_whole0 3).set_eq_univ,
    (arr_whole0 4).set_eq_univ, (arr_whole0 5).set_eq_univ, (arr_whole0 6).set_eq_univ, (arr_whole0 7).set_eq_univ]
  rfl

end SharedArray

/-! ## The first kernel's entry and exit over the held buffers -/

/-- ENTRY: every unscoped buffer held whole at `W1` is the first pipeline's arrays at their entry contents — the node
    features' buffer split into its two halves, one per window reading it — and the buffers no window reads. -/
theorem arrays_of_held0 (c : Dev nD) :
    (unscopedBufs c (V1 m c) : sProp 𝕄)
      ⊢ iprop((dat0 (V1 m) c).arrays ((dat0 (V1 m) c).arrAt · 0) ∗ Pipeline.unscopedRest spec0 c (V1 m c)) := by
  rw [show (unscopedBufs c (V1 m c) : sProp 𝕄) = iprop(Pipeline.arrBufs spec0 c (V1 m c) ∗ Pipeline.unscopedRest spec0 c (V1 m c))
      from Pipeline.unscopedBufs_split₀ (Ix := Unit) (Name := ℕ) (U := UR sig nD τ) (Lvl := ℕ) cfgs 0 winFacts₀0.arr_unscoped c (V1 m c),
    arrBufs0_eq, arrays0_eq]
  iintro ⟨⟨H0, H1, H3, H4, H5, H6, H7⟩, Hrest⟩
  ihave H0 := (pointsTo_share (PosShare.mem_left_op_right fullShare)).1 $$ H0
  icases H0 with ⟨H0l, H0r⟩
  isplitr [Hrest]
  swap; · iexact Hrest
  isplitl [H0l]; · iexact H0l
  isplitl [H1]; · iexact H1
  isplitl [H0r]; · iexact H0r
  isplitl [H3]; · iexact H3
  isplitl [H4]; · iexact H4
  isplitl [H5]; · iexact H5
  isplitl [H6]; · iexact H6
  iexact H7

/-- EXIT: the first pipeline's arrays at their final contents — the inputs as entered, the halves of the node features'
    buffer joined again, the two outputs at what the write-backs leave — and the buffers no window reads are every
    unscoped buffer held whole at `W2`. -/
theorem held_of_arrays0 (c : Dev nD) :
    iprop((dat0 (V1 m) c).arrays ((dat0 (V1 m) c).arrAt · cfg0.N) ∗ Pipeline.unscopedRest spec0 c (V1 m c))
      ⊢ (unscopedBufs c (V2 m c) : sProp 𝕄) := by
  have hrest : (Pipeline.unscopedRest spec0 c (V2 m c) : sProp 𝕄) = Pipeline.unscopedRest spec0 c (V1 m c) := by
    unfold Pipeline.unscopedRest
    exact bigSep_congr fun b hb => by
      rw [show V2 m c b = V1 m c b from W2_of_ne m c b
        (fun e => (Finset.mem_sdiff.mp hb).2 (Finset.mem_image.mpr ⟨6, Finset.mem_univ _, e.symm⟩))
        (fun e => (Finset.mem_sdiff.mp hb).2 (Finset.mem_image.mpr ⟨7, Finset.mem_univ _, e.symm⟩))]
  -- the arrays' final contents, window by window, as the entry valuation names them
  have hF : ((dat0 (V1 m) c).arrays ((dat0 (V1 m) c).arrAt · cfg0.N) : sProp 𝕄)
      = iprop((((c : Thread nD τ).loc main_arg0) ↦{fullShare.left} V1 m c main_arg0) ∗ (((c : Thread nD τ).loc main_v22) ↦{fullShare} V1 m c main_v22)
        ∗ (((c : Thread nD τ).loc main_arg0) ↦{fullShare.right} V1 m c main_arg0) ∗ (((c : Thread nD τ).loc main_arg3) ↦{fullShare} V1 m c main_arg3)
        ∗ (((c : Thread nD τ).loc main_v9) ↦{fullShare} V1 m c main_v9) ∗ (((c : Thread nD τ).loc main_arg5) ↦{fullShare} V1 m c main_arg5)
        ∗ (((c : Thread nD τ).loc main_v23_0) ↦{fullShare} (dat0 (V1 m) c).arrAt 6 cfg0.N)
        ∗ (((c : Thread nD τ).loc main_v23_1) ↦{fullShare} (dat0 (V1 m) c).arrAt 7 cfg0.N)) := by
    rw [arrays0_eq]
    have h0 : (dat0 (V1 m) c).arrAt 0 cfg0.N = V1 m c main_arg0 := ((dat0 (V1 m) c).arrAt_in 0 rfl cfg0.N).trans (A_eq0 (V1 m) c 0)
    have h1 : (dat0 (V1 m) c).arrAt 1 cfg0.N = V1 m c main_v22 := ((dat0 (V1 m) c).arrAt_in 1 rfl cfg0.N).trans (A_eq0 (V1 m) c 1)
    have h2 : (dat0 (V1 m) c).arrAt 2 cfg0.N = V1 m c main_arg0 := ((dat0 (V1 m) c).arrAt_in 2 rfl cfg0.N).trans (A_eq0 (V1 m) c 2)
    have h3 : (dat0 (V1 m) c).arrAt 3 cfg0.N = V1 m c main_arg3 := ((dat0 (V1 m) c).arrAt_in 3 rfl cfg0.N).trans (A_eq0 (V1 m) c 3)
    have h4 : (dat0 (V1 m) c).arrAt 4 cfg0.N = V1 m c main_v9 := ((dat0 (V1 m) c).arrAt_in 4 rfl cfg0.N).trans (A_eq0 (V1 m) c 4)
    have h5 : (dat0 (V1 m) c).arrAt 5 cfg0.N = V1 m c main_arg5 := ((dat0 (V1 m) c).arrAt_in 5 rfl cfg0.N).trans (A_eq0 (V1 m) c 5)
    exact congrArg₂ _ (congrArg _ h0) (congrArg₂ _ (congrArg _ h1) (congrArg₂ _ (congrArg _ h2) (congrArg₂ _ (congrArg _ h3)
      (congrArg₂ _ (congrArg _ h4) (congrArg₂ _ (congrArg _ h5) rfl)))))
  -- the exit valuation at the seven buffers
  have hB : (Pipeline.arrBufs spec0 c (V2 m c) : sProp 𝕄)
      = iprop((((c : Thread nD τ).loc main_arg0) ↦{fullShare} V1 m c main_arg0) ∗ (((c : Thread nD τ).loc main_v22) ↦{fullShare} V1 m c main_v22)
        ∗ (((c : Thread nD τ).loc main_arg3) ↦{fullShare} V1 m c main_arg3) ∗ (((c : Thread nD τ).loc main_v9) ↦{fullShare} V1 m c main_v9)
        ∗ (((c : Thread nD τ).loc main_arg5) ↦{fullShare} V1 m c main_arg5)
        ∗ (((c : Thread nD τ).loc main_v23_0) ↦{fullShare} (dat0 (V1 m) c).arrAt 6 cfg0.N)
        ∗ (((c : Thread nD τ).loc main_v23_1) ↦{fullShare} (dat0 (V1 m) c).arrAt 7 cfg0.N)) := by
    rw [arrBufs0_eq]
    exact congrArg₂ _ (congrArg _ (W2_of_ne m c main_arg0 (by decide) (by decide)))
      (congrArg₂ _ (congrArg _ (W2_of_ne m c main_v22 (by decide) (by decide)))
      (congrArg₂ _ (congrArg _ (W2_of_ne m c main_arg3 (by decide) (by decide)))
      (congrArg₂ _ (congrArg _ (W2_of_ne m c main_v9 (by decide) (by decide)))
      (congrArg₂ _ (congrArg _ (W2_of_ne m c main_arg5 (by decide) (by decide)))
      (congrArg₂ _ (congrArg _ (W2_v23_0 m c)) (congrArg _ (W2_v23_1 m c)))))))
  rw [show (unscopedBufs c (V2 m c) : sProp 𝕄) = iprop(Pipeline.arrBufs spec0 c (V2 m c) ∗ Pipeline.unscopedRest spec0 c (V2 m c))
      from Pipeline.unscopedBufs_split₀ (Ix := Unit) (Name := ℕ) (U := UR sig nD τ) (Lvl := ℕ) cfgs 0 winFacts₀0.arr_unscoped c (V2 m c),
    hrest, hF, hB]
  iintro ⟨⟨H0l, H1, H0r, H3, H4, H5, H6, H7⟩, Hrest⟩
  ihave H0 := (pointsTo_share (f := V1 m c main_arg0) (PosShare.mem_left_op_right fullShare)).2 $$ [H0l H0r]
  · isplitl [H0l] <;> iassumption
  isplitr [Hrest]
  swap; · iexact Hrest
  isplitl [H0]; · iexact H0
  isplitl [H1]; · iexact H1
  isplitl [H3]; · iexact H3
  isplitl [H4]; · iexact H4
  isplitl [H5]; · iexact H5
  isplitl [H6]; · iexact H6
  iexact H7

/-! ## The second kernel's arrays at its exit -/

theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item of the run: its operations over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The kernels as items of the run -/

set_option backward.isDefEq.respectTransparency.types false in
/-- The first kernel: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := arrays_of_held0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := held_of_arrays0 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second kernel: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- The program IS the run of its items. -/
theorem main_run (c : Dev nD) : main (F := F) c = Pipeline.Seg.run (segs m) := (main_chain c).trans (by chain_rfl)

set_option backward.isDefEq.respectTransparency.types false in
/-- THE RUN. From any memory with zero counters, every weakly fair execution of the program on the TensorCores
    terminates, nothing faulting, and in every final state each unscoped buffer holds its `W4` contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What no item writes -/

/-- A buffer the first host stretch does not write holds its launch contents when the first kernel is entered. -/
theorem W1_of (c : Dev nD) (r : Ref sig .tc) (h : r ∉ hostOps0_W) : W1 m c r = m ((c : Thread nD τ).loc r) :=
  StableHlo.after_of_writes_sub hostOps0 _ hostOps0_writes h
/-- A buffer the second host stretch does not write is as the first kernel left it. -/
theorem W3_of (c : Dev nD) (r : Ref sig .tc) (h : r ∉ hostOps1_W) : W3 m c r = W2 m c r :=
  StableHlo.after_of_writes_sub hostOps1 _ hostOps1_writes h
/-- A buffer no host operation writes and no kernel has as an output ends as launched. -/
theorem W4_of_launch (c : Dev nD) (r : Ref sig .tc) (h0 : r ∉ hostOps0_W) (h1 : r ∉ hostOps1_W) (ha : r ≠ main_v23_0) (hb : r ≠ main_v23_1)
    (hw : ∀ w, Pipeline.arrRef spec1 w ≠ r) : W4 m c r = m ((c : Thread nD τ).loc r) :=
  (W4_of_ne m c r hw).trans <| (W3_of m c r h1).trans <| (W2_of_ne m c r ha hb).trans (W1_of m c r h0)

/-- An input array of the second kernel ends as the kernel found it. -/
theorem W4_of_input (c : Dev nD) (w : Fin cfg1.W) (hin : (cfg1.win w).isOut = false) :
    W4 m c (Proc.devRef .tc (Pipeline.arrRef spec1 w)) = V3 m c (Pipeline.arrRef spec1 w) :=
  (W4_arr m c w).trans (((dat1 (V3 m) c).arrAt_in w hin _).trans (A_eq1 (V3 m) c w))
theorem W4_arg6 (c : Dev nD) : W4 m c main_arg6 = m ((c : Thread nD τ).loc main_arg6) :=
  (W4_of_input m c 3 rfl).trans ((W3_of m c main_arg6 (by decide)).trans ((W2_of_ne m c main_arg6 (by decide) (by decide)).trans (W1_of m c main_arg6 (by decide))))
theorem W4_arg8 (c : Dev nD) : W4 m c main_arg8 = m ((c : Thread nD τ).loc main_arg8) :=
  (W4_of_input m c 5 rfl).trans ((W3_of m c main_arg8 (by decide)).trans ((W2_of_ne m c main_arg8 (by decide) (by decide)).trans (W1_of m c main_arg8 (by decide))))

/-! ## The frame, and the run with the result named -/

/-- Every weakly fair execution terminates, nothing faulting, with the result buffer at its `W4` contents and every
    argument array as launched. -/
theorem run_result : θ_run defs (onTc (τ := τ) (main (F := F))) ⟨m, fun _ => 0, ρ⟩ (fun r => ∀ c : Dev nD,
      r.2.mem ((c.tc : Thread nD τ).loc main_v36_1) = W4 m c main_v36_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v36_1 (by decide)),
      (h c _ (mem_uc main_arg0 (by decide))).trans (W4_of_launch m c main_arg0 (by decide) (by decide) (by decide) (by decide) (by decide)),
      (h c _ (mem_uc main_arg1 (by decide))).trans (W4_of_launch m c main_arg1 (by decide) (by decide) (by decide) (by decide) (by decide)),
      (h c _ (mem_uc main_arg2 (by decide))).trans (W4_of_launch m c main_arg2 (by decide) (by decide) (by decide) (by decide) (by decide)),
      (h c _ (mem_uc main_arg3 (by decide))).trans (W4_of_launch m c main_arg3 (by decide) (by decide) (by decide) (by decide) (by decide)),
      (h c _ (mem_uc main_arg4 (by decide))).trans (W4_of_launch m c main_arg4 (by decide) (by decide) (by decide) (by decide) (by decide)),
      (h c _ (mem_uc main_arg5 (by decide))).trans (W4_of_launch m c main_arg5 (by decide) (by decide) (by decide) (by decide) (by decide)),
      (h c _ (mem_uc main_arg6 (by decide))).trans (W4_arg6 m c),
      (h c _ (mem_uc main_arg7 (by decide))).trans (W4_of_launch m c main_arg7 (by decide) (by decide) (by decide) (by decide) (by decide)),
      (h c _ (mem_uc main_arg8 (by decide))).trans (W4_arg8 m c)⟩) (run_all m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.KernelIdeal.Hand

end
-- ==== Proof.Spec.lean ====
/-
  The two-layer mean-aggregation network over the extended reals, index by index, in the two arrangements the
  kernel and the reference compute it in, and the proof that they are one function.

  Both programs start from node features `h` (100000 × 64) and, for each of two layers with weights `Ws`, `Wn`
  (64 × 64) and bias `b` (64), form
      lin(x)[p, q] = ∑ₖ x[p, k]·Ws[k, q] + ∑ₖ mean(x)[p, k]·Wn[k, q] + b[q],
  where `mean(x)` is the edge aggregation `agg x` of `x` (a gather along the edge sources summed into the edge
  targets: the same operation in both programs, left opaque here) divided row by row by the clamped in-degree
  `D[p] = max(deg[p], 1)`, and return `h + lin₀(h) / 1 + lin₁(lin₀(h)) / 2`.

  The kernel multiplies the aggregation by the reciprocal `1 / D[p]`, adds the two products before the bias, and scales
  the layer outputs by the constants `1` and `1/2`; the reference divides by `D[p]`, adds the bias to the first
  product before the second, and divides the layer outputs by `1` and `2`. On the extended reals: a quotient by a
  nonzero `y` is the product with `y⁻¹`, whatever the dividend, so `x · (1 / D)` is `x / D` as soon as `D ≠ 0` (no
  finiteness needed: `D ≥ 1` because it is a maximum with one); addition is commutative and associative at the
  infinities too; and `1⁻¹ = 1`, `2⁻¹ = 1/2` are reals.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Node-by-feature arrays, weight matrices, the bias as a row and as a vector, per-node scalars. -/
abbrev SN : Shape := ⟨2, ![100000, 64]⟩
abbrev SW : Shape := ⟨2, ![64, 64]⟩
abbrev SR : Shape := ⟨2, ![1, 64]⟩
abbrev SB : Shape := ⟨1, ![64]⟩
abbrev SD : Shape := ⟨1, ![100000]⟩

/-- The words of the float constants `1`, `1/2` and `2`. -/
abbrev oneW : BitVec 32 := 0x3F800000#32
abbrev halfW : BitVec 32 := 0x3F000000#32
abbrev twoW : BitVec 32 := 0x40000000#32

/-! ## The kernel's arrangement -/

/-- One layer's features as the kernel's body forms them from the node features `x`, the neighbourhood means `nm`
    (already divided), the weights and the bias ROW: the two products first, then the bias. -/
def feat (x nm : SN.Idx → EReal) (Ws : SW.Idx → EReal) (b : SR.Idx → EReal) (Wn : SW.Idx → EReal) : SN.Idx → EReal :=
  fun i => (∑ k : Fin 64, x (ix2 (i 0) k) * Ws (ix2 k (i 1)) + ∑ k : Fin 64, nm (ix2 (i 0) k) * Wn (ix2 k (i 1)))
    + b (ix2 0 (i 1))

/-- The residual the kernel's body accumulates: `r + y · s` with `s` the layer's scale. -/
def resid (s : EReal) (r y : SN.Idx → EReal) : SN.Idx → EReal := fun i => r i + y i * s

/-- The neighbourhood means as the kernel's host code forms them: the aggregation times the reciprocal of the
    clamped degree. -/
def meanMul (S : SN.Idx → EReal) (D : SD.Idx → EReal) : SN.Idx → EReal :=
  fun i => S i * Ideal.div (Ideal.ofBits .f32 oneW) (D (ix1 (i 0)))

/-- The bias vector laid out as a row. -/
def rowOf (b : SB.Idx → EReal) : SR.Idx → EReal := fun i => b (ix1 (i 1))

/-- The kernel's result from the node features, the two layers' parameters, the aggregation and the clamped degree. -/
def kernelRes (agg : (SN.Idx → EReal) → SN.Idx → EReal) (D : SD.Idx → EReal) (h : SN.Idx → EReal)
    (Ws0 : SW.Idx → EReal) (b0 : SB.Idx → EReal) (Wn0 Ws1 : SW.Idx → EReal) (b1 : SB.Idx → EReal) (Wn1 : SW.Idx → EReal) : SN.Idx → EReal :=
  let t1 := feat h (meanMul (agg h) D) Ws0 (rowOf b0) Wn0
  let r1 := resid (Ideal.ofBits .f32 oneW) h t1
  let t2 := feat t1 (meanMul (agg t1) D) Ws1 (rowOf b1) Wn1
  resid (Ideal.ofBits .f32 halfW) r1 t2

/-! ## The reference's arrangement -/

/-- The neighbourhood means as the reference forms them: the aggregation divided by the clamped degree. -/
def meanDiv (S : SN.Idx → EReal) (D : SD.Idx → EReal) : SN.Idx → EReal :=
  fun i => Ideal.div (S i) (D (ix1 (i 0)))

/-- One layer's features as the reference forms them: the bias joins the first product before the second. -/
def featRef (x nm : SN.Idx → EReal) (Ws : SW.Idx → EReal) (b : SB.Idx → EReal) (Wn : SW.Idx → EReal) : SN.Idx → EReal :=
  fun i => (∑ k : Fin 64, x (ix2 (i 0) k) * Ws (ix2 k (i 1)) + b (ix1 (i 1)))
    + ∑ k : Fin 64, nm (ix2 (i 0) k) * Wn (ix2 k (i 1))

/-- The reference's result. -/
def refRes (agg : (SN.Idx → EReal) → SN.Idx → EReal) (D : SD.Idx → EReal) (h : SN.Idx → EReal)
    (Ws0 : SW.Idx → EReal) (b0 : SB.Idx → EReal) (Wn0 Ws1 : SW.Idx → EReal) (b1 : SB.Idx → EReal) (Wn1 : SW.Idx → EReal) : SN.Idx → EReal :=
  let t1 := featRef h (meanDiv (agg h) D) Ws0 b0 Wn0
  let r1 : SN.Idx → EReal := fun i => h i + Ideal.div (t1 i) (Ideal.ofBits .f32 oneW)
  let t2 := featRef t1 (meanDiv (agg t1) D) Ws1 b1 Wn1
  fun i => r1 i + Ideal.div (t2 i) (Ideal.ofBits .f32 twoW)

/-! ## They are one function -/

/-- The word `0x3F800000` denotes the real `1`. -/
theorem ofBits_one : Ideal.ofBits .f32 oneW = ((1 : ℝ) : EReal) := by
  show Ideal.ofBits .f32 0x3F800000#32 = _
  simp [Ideal.ofBits, Ideal.ieee, -EReal.coe_mul]; norm_num

/-- The word `0x3F000000` denotes the real `1/2`. -/
theorem ofBits_half : Ideal.ofBits .f32 halfW = ((1 / 2 : ℝ) : EReal) := by
  show Ideal.ofBits .f32 0x3F000000#32 = _
  simp [Ideal.ofBits, Ideal.ieee, -EReal.coe_mul]; norm_num

/-- The word `0x40000000` denotes the real `2`. -/
theorem ofBits_two : Ideal.ofBits .f32 twoW = ((2 : ℝ) : EReal) := by
  show Ideal.ofBits .f32 0x40000000#32 = _
  simp [Ideal.ofBits, Ideal.ieee, -EReal.coe_mul]; norm_num

/-- A product with the reciprocal of a nonzero extended real is the quotient by it: `1 / d` is `1 · d⁻¹`. -/
theorem mul_div_one (x d : EReal) (hd : d ≠ 0) : x * Ideal.div (Ideal.ofBits .f32 oneW) d = Ideal.div x d := by
  rw [ofBits_one]; unfold Ideal.div; rw [if_neg hd, if_neg hd, EReal.coe_one, one_mul]

/-- Scaling by the constant one is dividing by it. -/
theorem mul_one_eq (x : EReal) : x * Ideal.ofBits .f32 oneW = Ideal.div x (Ideal.ofBits .f32 oneW) := by
  rw [ofBits_one, Ideal.div_coe one_ne_zero]; norm_num

/-- Scaling by the constant one half is dividing by two. -/
theorem mul_half_eq (x : EReal) : x * Ideal.ofBits .f32 halfW = Ideal.div x (Ideal.ofBits .f32 twoW) := by
  rw [ofBits_half, ofBits_two, Ideal.div_coe two_ne_zero]

theorem meanMul_eq (S : SN.Idx → EReal) (D : SD.Idx → EReal) (hD : ∀ i, D i ≠ 0) : meanMul S D = meanDiv S D := by
  funext i; exact mul_div_one _ _ (hD _)

theorem feat_eq (x nm : SN.Idx → EReal) (Ws : SW.Idx → EReal) (b : SB.Idx → EReal) (Wn : SW.Idx → EReal) :
    feat x nm Ws (rowOf b) Wn = featRef x nm Ws b Wn := by
  funext i
  simp only [feat, featRef, rowOf]
  exact add_right_comm _ _ _

/-- The kernel's and the reference's arrangements agree wherever the clamped degree is nowhere zero. -/
theorem kernelRes_eq_refRes (agg : (SN.Idx → EReal) → SN.Idx → EReal) (D : SD.Idx → EReal) (hD : ∀ i, D i ≠ 0) (h : SN.Idx → EReal)
    (Ws0 : SW.Idx → EReal) (b0 : SB.Idx → EReal) (Wn0 Ws1 : SW.Idx → EReal) (b1 : SB.Idx → EReal) (Wn1 : SW.Idx → EReal) :
    kernelRes agg D h Ws0 b0 Wn0 Ws1 b1 Wn1 = refRes agg D h Ws0 b0 Wn0 Ws1 b1 Wn1 := by
  unfold kernelRes refRes
  simp only [meanMul_eq _ D hD, feat_eq]
  funext i
  simp only [resid, mul_one_eq, mul_half_eq]

end Cert.Spec

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Ideal.ValueA.lean ====
/-
  The first layer's combine kernel, read as values over the extended reals: what its two output arrays hold when
  the region has run, index by index, as functions of the arrays the region finds.
-/
import proofs.«165216_j71700184039591_1_alg».proof.Proof.Ideal.CombineA
import proofs.«165216_j71700184039591_1_alg».proof.Proof.Spec
import proofs.«165216_j71700184039591_1_alg».proof.Proof.LibDot2
import Idealize.ShloMosaic.Lib.Pipeline.Value
import Idealize.ShloMosaic.Lib.ValueIdx
import Idealize.ShloMosaic.Lib.ValueLayout

noncomputable section

open scoped BigOperators

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! ## The body's payloads at an index -/

theorem zeroOffA : (![0, 0] : Fin 2 → Nat) = fun _ => 0 := funext fun a => by fin_cases a <;> rfl

/-- The kernel's product is the plain matrix product of a 4000×64 block by a 64×64 matrix. -/
theorem dotA_eq : dot_S4000x64_S64x64_S4000x64_1_0_0_1_n_n
    = Dot2.mmDims 4000 64 64 dot_S4000x64_S64x64_S4000x64_1_0_0_1_n_n_wf := rfl

/-- The bias row spread over the block's rows, at `(p, q)`, is the row's entry `q`. -/
theorem biasRowA_apply (x4 : Vec Ideal S1x64 .f32) (p : Fin 4000) (q : Fin 64) :
    broadcastTo S4000x64 (shapeCast S1x64 x4 shapeCasts_S1x64_S1x64) broadcasts_S1x64_S4000x64 (ix2 p q)
      = x4 (ix2 0 q) := by
  rw [shapeCast_self]
  refine broadcastTo_apply _ _ _ _ (fun a => ?_)
  match a with
  | ⟨0, _⟩ => rfl
  | ⟨1, _⟩ => rfl

/-- The features' payload at `(p, q)`: the two products' sums, then the bias. -/
theorem pay1A_apply (x0 x1 : Vec Ideal S4000x64 .f32) (x3 x5 : Vec Ideal S64x64 .f32) (x4 : Vec Ideal S1x64 .f32)
    (p : Fin 4000) (q : Fin 64) :
    k0_pay1 x0 x1 x3 x5 x4 (ix2 p q)
      = (∑ k : Fin 64, x0 (ix2 p k) * x3 (ix2 k q) + ∑ k : Fin 64, x1 (ix2 p k) * x5 (ix2 k q)) + x4 (ix2 0 q) := by
  unfold k0_pay1
  simp only [matmul]
  rw [addf_apply, addf_apply, biasRowA_apply, dotA_eq, Dot2.matmul_zero_mm_apply, Dot2.matmul_zero_mm_apply,
    shapeCast_self]
  rfl

/-- The residual's payload at an index: the residual in, plus the features' payload times the layer's scale. -/
theorem pay2A_apply (x0 x1 x2 : Vec Ideal S4000x64 .f32) (x3 x5 : Vec Ideal S64x64 .f32) (x4 : Vec Ideal S1x64 .f32)
    (y : S4000x64.Idx) :
    k0_pay2 x0 x1 x3 x5 x4 x2 y = x2 y + k0_pay1 x0 x1 x3 x5 x4 y * Ideal.ofBits .f32 Cert.Spec.oneW := by
  unfold k0_pay2
  rfl

/-! ## The windows' blocks, read off the arrays

Each printed index map over the grid, decided once: the three row-block inputs and the two outputs sit at block row
`t`, block column `0`; the weights and the bias row sit at block `(0, 0)` at every point. A block's coordinate on
an axis is its block index times the block's size plus the coordinate inside the block. -/

theorem idxA_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

variable (V : (c : Dev nD) → (b : Ref sig .tc) → Buf (Elt Ideal) ((c : Thread nD τ).loc b))

/-- The node features' block at point `t` is rows `4000 t … 4000 t + 3999` of the array. -/
theorem rowsA0_apply (c : Dev nD) (t : Fin cfg0.N) (y : S4000x64.Idx) (i : S100000x64.Idx)
    (h0 : (i 0).val = 4000 * t.val + (y 0).val) (h1 : (i 1).val = (y 1).val) :
    (iblk0 (F := Ideal) V c 0 t : Vec Ideal S4000x64 .f32) y = (V c main_arg0 : S100000x64.Idx → EReal) i := by
  obtain ⟨e0, e1, -⟩ := idxA_facts t
  unfold iblk0
  rw [View.read_apply]
  show V c main_arg0 _ = V c main_arg0 _
  congr 1
  funext a
  apply Fin.ext
  match a with
  | ⟨0, _⟩ => show win0_0.index t (0 : Fin 2) * 4000 + 1 * (y 0).val = (i 0).val; omega
  | ⟨1, _⟩ => show win0_0.index t (1 : Fin 2) * 64 + 1 * (y 1).val = (i 1).val; omega

/-- The neighbourhood means' block at point `t` is the same rows of their array. -/
theorem rowsA1_apply (c : Dev nD) (t : Fin cfg0.N) (y : S4000x64.Idx) (i : S100000x64.Idx)
    (h0 : (i 0).val = 4000 * t.val + (y 0).val) (h1 : (i 1).val = (y 1).val) :
    (iblk0 (F := Ideal) V c 1 t : Vec Ideal S4000x64 .f32) y = (V c main_v22 : S100000x64.Idx → EReal) i := by
  obtain ⟨-, -, e0, e1, -⟩ := idxA_facts t
  unfold iblk0
  rw [View.read_apply]
  show V c main_v22 _ = V c main_v22 _
  congr 1
  funext a
  apply Fin.ext
  match a with
  | ⟨0, _⟩ => show win0_1.index t (0 : Fin 2) * 4000 + 1 * (y 0).val = (i 0).val; omega
  | ⟨1, _⟩ => show win0_1.index t (1 : Fin 2) * 64 + 1 * (y 1).val = (i 1).val; omega

/-- The residual's block at point `t` is the same rows of the array it comes in. -/
theorem rowsA2_apply (c : Dev nD) (t : Fin cfg0.N) (y : S4000x64.Idx) (i : S100000x64.Idx)
    (h0 : (i 0).val = 4000 * t.val + (y 0).val) (h1 : (i 1).val = (y 1).val) :
    (iblk0 (F := Ideal) V c 2 t : Vec Ideal S4000x64 .f32) y = (V c main_arg0 : S100000x64.Idx → EReal) i := by
  obtain ⟨-, -, -, -, e0, e1, -⟩ := idxA_facts t
  unfold iblk0
  rw [View.read_apply]
  show V c main_arg0 _ = V c main_arg0 _
  congr 1
  funext a
  apply Fin.ext
  match a with
  | ⟨0, _⟩ => show win0_2.index t (0 : Fin 2) * 4000 + 1 * (y 0).val = (i 0).val; omega
  | ⟨1, _⟩ => show win0_2.index t (1 : Fin 2) * 64 + 1 * (y 1).val = (i 1).val; omega

/-- The first weight matrix is read whole at every point. -/
theorem wholeA3_apply (c : Dev nD) (t : Fin cfg0.N) (y : S64x64.Idx) (i : S64x64.Idx)
    (h0 : (i 0).val = (y 0).val) (h1 : (i 1).val = (y 1).val) :
    (iblk0 (F := Ideal) V c 3 t : Vec Ideal S64x64 .f32) y = (V c main_arg3 : S64x64.Idx → EReal) i := by
  obtain ⟨-, -, -, -, -, -, e0, e1, -⟩ := idxA_facts t
  unfold iblk0
  rw [View.read_apply]
  show V c main_arg3 _ = V c main_arg3 _
  congr 1
  funext a
  apply Fin.ext
  match a with
  | ⟨0, _⟩ => show win0_3.index t (0 : Fin 2) * 64 + 1 * (y 0).val = (i 0).val; omega
  | ⟨1, _⟩ => show win0_3.index t (1 : Fin 2) * 64 + 1 * (y 1).val = (i 1).val; omega

/-- The bias row is read whole at every point. -/
theorem wholeA4_apply (c : Dev nD) (t : Fin cfg0.N) (y : S1x64.Idx) (i : S1x64.Idx)
    (h0 : (i 0).val = (y 0).val) (h1 : (i 1).val = (y 1).val) :
    (iblk0 (F := Ideal) V c 4 t : Vec Ideal S1x64 .f32) y = (V c main_v9 : S1x64.Idx → EReal) i := by
  obtain ⟨-, -, -, -, -, -, -, -, e0, e1, -⟩ := idxA_facts t
  unfold iblk0
  rw [View.read_apply]
  show V c main_v9 _ = V c main_v9 _
  congr 1
  funext a
  apply Fin.ext
  match a with
  | ⟨0, _⟩ => show win0_4.index t (0 : Fin 2) * 1 + 1 * (y 0).val = (i 0).val; omega
  | ⟨1, _⟩ => show win0_4.index t (1 : Fin 2) * 64 + 1 * (y 1).val = (i 1).val; omega

/-- The second weight matrix is read whole at every point. -/
theorem wholeA5_apply (c : Dev nD) (t : Fin cfg0.N) (y : S64x64.Idx) (i : S64x64.Idx)
    (h0 : (i 0).val = (y 0).val) (h1 : (i 1).val = (y 1).val) :
    (iblk0 (F := Ideal) V c 5 t : Vec Ideal S64x64 .f32) y = (V c main_arg5 : S64x64.Idx → EReal) i := by
  obtain ⟨-, -, -, -, -, -, -, -, -, -, e0, e1, -⟩ := idxA_facts t
  unfold iblk0
  rw [View.read_apply]
  show V c main_arg5 _ = V c main_arg5 _
  congr 1
  funext a
  apply Fin.ext
  match a with
  | ⟨0, _⟩ => show win0_5.index t (0 : Fin 2) * 64 + 1 * (y 0).val = (i 0).val; omega
  | ⟨1, _⟩ => show win0_5.index t (1 : Fin 2) * 64 + 1 * (y 1).val = (i 1).val; omega

/-! ## What a point writes back -/

/-- The features' payload of the blocks at point `t`, at `(p, q)`, is the layer's features at any array index `i`
    with row `4000 t + p` and column `q`. -/
theorem featA_at (c : Dev nD) (t : Fin cfg0.N) (p : Fin 4000) (q : Fin 64) (i : S100000x64.Idx)
    (hi0 : (i 0).val = 4000 * t.val + p.val) (hi1 : (i 1).val = q.val) :
    k0_pay1 (iblk0 (F := Ideal) V c 0 t) (iblk0 V c 1 t) (iblk0 V c 3 t) (iblk0 V c 5 t) (iblk0 V c 4 t) (ix2 p q)
      = Cert.Spec.feat (V c main_arg0) (V c main_v22) (V c main_arg3) (V c main_v9) (V c main_arg5) i := by
  refine (pay1A_apply _ _ _ _ _ p q).trans ?_
  unfold Cert.Spec.feat
  refine congrArg₂ (· + ·) (congrArg₂ (· + ·)
    (Finset.sum_congr rfl fun k _ => congrArg₂ (· * ·) ?_ ?_)
    (Finset.sum_congr rfl fun k _ => congrArg₂ (· * ·) ?_ ?_)) ?_
  · exact rowsA0_apply V c t (ix2 p k) (ix2 (i 0) k) hi0 rfl
  · exact wholeA3_apply V c t (ix2 k q) (ix2 k (i 1)) rfl hi1
  · exact rowsA1_apply V c t (ix2 p k) (ix2 (i 0) k) hi0 rfl
  · exact wholeA5_apply V c t (ix2 k q) (ix2 k (i 1)) rfl hi1
  · exact wholeA4_apply V c t (ix2 0 q) (ix2 0 (i 1)) rfl hi1

/-- The array index of a block index of an output window at point `t`: row `4000 t + p`, column `q`. -/
theorem outIdxA6 (t : Fin cfg0.N) (p : Fin 4000) (q : Fin 64) :
    ((((cfg0.win 6).blk t).view.emb (ix2 p q) : S100000x64.Idx) 0).val = 4000 * t.val + p.val
      ∧ ((((cfg0.win 6).blk t).view.emb (ix2 p q) : S100000x64.Idx) 1).val = q.val := by
  obtain ⟨-, -, -, -, -, -, -, -, -, -, -, -, e0, e1, -⟩ := idxA_facts t
  constructor
  · show win0_6.index t (0 : Fin 2) * 4000 + 1 * p.val = _; omega
  · show win0_6.index t (1 : Fin 2) * 64 + 1 * q.val = _; omega

theorem outIdxA7 (t : Fin cfg0.N) (p : Fin 4000) (q : Fin 64) :
    ((((cfg0.win 7).blk t).view.emb (ix2 p q) : S100000x64.Idx) 0).val = 4000 * t.val + p.val
      ∧ ((((cfg0.win 7).blk t).view.emb (ix2 p q) : S100000x64.Idx) 1).val = q.val := by
  obtain ⟨-, -, -, -, -, -, -, -, -, -, -, -, -, -, e0, e1⟩ := idxA_facts t
  constructor
  · show win0_7.index t (0 : Fin 2) * 4000 + 1 * p.val = _; omega
  · show win0_7.index t (1 : Fin 2) * 64 + 1 * q.val = _; omega

/-- What point `t` writes back to the features' array is block `t` of the layer's features. -/
theorem flushedA6_eq (c : Dev nD) (t : Fin cfg0.N) :
    (dat0 (F := Ideal) V c).flushed 6 t
      = ((cfg0.win 6).blk t).view.read (Elt Ideal)
          (Cert.Spec.feat (V c main_arg0) (V c main_v22) (V c main_arg3) (V c main_v9) (V c main_arg5)) := by
  show (cfg0.win 6).cut (grid0.coords t) ((dat0 V c).after 6 t) = _
  rw [after0_6]
  unfold out0_6
  rw [View.canon_unit_zero zeroOffA]
  simp only [View.ld_unit_zero (S := S4000x64) zeroOffA, View.ld_unit_zero (S := S64x64) zeroOffA,
    View.ld_unit_zero (S := S1x64) zeroOffA]
  refine funext fun (y : S4000x64.Idx) => ?_
  obtain ⟨p, q, rfl⟩ : ∃ (p : Fin 4000) (q : Fin 64), y = ix2 p q := ⟨y 0, y 1, eq_ix2 y⟩
  rw [View.read_apply]
  exact featA_at V c t p q _ (outIdxA6 t p q).1 (outIdxA6 t p q).2

/-- What point `t` writes back to the residual's array is block `t` of the residual in plus the scaled features. -/
theorem flushedA7_eq (c : Dev nD) (t : Fin cfg0.N) :
    (dat0 (F := Ideal) V c).flushed 7 t
      = ((cfg0.win 7).blk t).view.read (Elt Ideal)
          (Cert.Spec.resid (Ideal.ofBits .f32 Cert.Spec.oneW) (V c main_arg0)
            (Cert.Spec.feat (V c main_arg0) (V c main_v22) (V c main_arg3) (V c main_v9) (V c main_arg5))) := by
  show (cfg0.win 7).cut (grid0.coords t) ((dat0 V c).after 7 t) = _
  rw [after0_7]
  unfold out0_7
  rw [View.canon_unit_zero zeroOffA]
  simp only [View.ld_unit_zero (S := S4000x64) zeroOffA, View.ld_unit_zero (S := S64x64) zeroOffA,
    View.ld_unit_zero (S := S1x64) zeroOffA]
  refine funext fun (y : S4000x64.Idx) => ?_
  obtain ⟨p, q, rfl⟩ : ∃ (p : Fin 4000) (q : Fin 64), y = ix2 p q := ⟨y 0, y 1, eq_ix2 y⟩
  rw [View.read_apply]
  refine (pay2A_apply _ _ _ _ _ _ (ix2 p q)).trans ?_
  unfold Cert.Spec.resid
  refine congrArg₂ (· + ·) ?_ (congrArg (· * Ideal.ofBits .f32 Cert.Spec.oneW) ?_)
  · exact rowsA2_apply V c t (ix2 p q) _ (outIdxA7 t p q).1 (outIdxA7 t p q).2
  · exact featA_at V c t p q _ (outIdxA7 t p q).1 (outIdxA7 t p q).2

/-! ## The blocks tile the array -/

/-- An index of the array is in point `t`'s block iff each coordinate is in the block's range on its axis. -/
theorem mem_blkA6 (t : Fin cfg0.N) (i : S100000x64.Idx) :
    i ∈ ((cfg0.win 6).blk t).view.set ↔ ∀ a : Fin 2, win0_6.index t a * S4000x64.size a ≤ (i a).val
      ∧ (i a).val < win0_6.index t a * S4000x64.size a + S4000x64.size a := by
  show i ∈ ((View.whole main_v23_0).slice (win0_6.rect t)).set ↔ _
  rw [View.set_slice_whole, Rect.mem_set_unit]
  exact Iff.rfl

theorem mem_blkA7 (t : Fin cfg0.N) (i : S100000x64.Idx) :
    i ∈ ((cfg0.win 7).blk t).view.set ↔ ∀ a : Fin 2, win0_7.index t a * S4000x64.size a ≤ (i a).val
      ∧ (i a).val < win0_7.index t a * S4000x64.size a + S4000x64.size a := by
  show i ∈ ((View.whole main_v23_1).slice (win0_7.rect t)).set ↔ _
  rw [View.set_slice_whole, Rect.mem_set_unit]
  exact Iff.rfl

/-- Row `r` of the array lies in the block of point `r / 4000`: the 25 row blocks tile the 100000 rows. -/
theorem coverA6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  have ht : t.val = (i 0).val / 4000 := rfl
  obtain ⟨-, -, -, -, -, -, -, -, -, -, -, -, e0, e1, -⟩ := idxA_facts t
  refine ⟨t, flush0_6 t, ?_⟩
  rw [mem_blkA6]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 64 ≤ (i 1).val ∧ (i 1).val < win0_6.index t (1 : Fin 2) * 64 + 64
    omega

theorem coverA7 (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  have ht : t.val = (i 0).val / 4000 := rfl
  obtain ⟨-, -, -, -, -, -, -, -, -, -, -, -, -, -, e0, e1⟩ := idxA_facts t
  refine ⟨t, flush0_7 t, ?_⟩
  rw [mem_blkA7]
  intro a
  match a with
  | ⟨0, _⟩ =>
    show win0_7.index t (0 : Fin 2) * 4000 ≤ (i 0).val ∧ (i 0).val < win0_7.index t (0 : Fin 2) * 4000 + 4000
    omega
  | ⟨1, _⟩ =>
    show win0_7.index t (1 : Fin 2) * 64 ≤ (i 1).val ∧ (i 1).val < win0_7.index t (1 : Fin 2) * 64 + 64
    omega

/-! ## The two output arrays when the region has run -/

/-- The features' array ends holding the layer's features of the arrays the region found. -/
theorem featA_eq (c : Dev nD) :
    (dat0 (F := Ideal) V c).arrAt 6 cfg0.N
      = Cert.Spec.feat (V c main_arg0) (V c main_v22) (V c main_arg3) (V c main_v9) (V c main_arg5) :=
  (dat0 (F := Ideal) V c).arrAt_eq_of_cover 6 _ (fun t _ => flushedA6_eq V c t) coverA6

/-- The residual's array ends holding the residual in plus the layer's features times the layer's scale. -/
theorem resA_eq (c : Dev nD) :
    (dat0 (F := Ideal) V c).arrAt 7 cfg0.N
      = Cert.Spec.resid (Ideal.ofBits .f32 Cert.Spec.oneW) (V c main_arg0)
          (Cert.Spec.feat (V c main_arg0) (V c main_v22) (V c main_arg3) (V c main_v9) (V c main_arg5)) :=
  (dat0 (F := Ideal) V c).arrAt_eq_of_cover 7 _ (fun t _ => flushedA7_eq V c t) coverA7

end Cert.KernelIdeal.Hand

end
-- ==== Proof.Ideal.ValueB.lean ====
/-
  The second layer's combine kernel, read as values over the extended reals: what its two output arrays hold when
  the region has run, index by index, as functions of the arrays the region finds. Its features come in from the
  first layer's features' array, its residual from the first layer's residual's array, and its scale is one half.
-/
import proofs.«165216_j71700184039591_1_alg».proof.Proof.Ideal.CombineB
import proofs.«165216_j71700184039591_1_alg».proof.Proof.Spec
import proofs.«165216_j71700184039591_1_alg».proof.Proof.LibDot2
import Idealize.ShloMosaic.Lib.Pipeline.Value
import Idealize.ShloMosaic.Lib.ValueIdx
import Idealize.ShloMosaic.Lib.ValueLayout

noncomputable section

open scoped BigOperators

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! ## The body's payloads at an index -/

theorem zeroOffB : (![0, 0] : Fin 2 → Nat) = fun _ => 0 := funext fun a => by fin_cases a <;> rfl

/-- The kernel's product is the plain matrix product of a 4000×64 block by a 64×64 matrix. -/
theorem dotB_eq : dot_S4000x64_S64x64_S4000x64_1_0_0_1_n_n
    = Dot2.mmDims 4000 64 64 dot_S4000x64_S64x64_S4000x64_1_0_0_1_n_n_wf := rfl

/-- The bias row spread over the block's rows, at `(p, q)`, is the row's entry `q`. -/
theorem biasRowB_apply (x4 : Vec Ideal S1x64 .f32) (p : Fin 4000) (q : Fin 64) :
    broadcastTo S4000x64 (shapeCast S1x64 x4 shapeCasts_S1x64_S1x64) broadcasts_S1x64_S4000x64 (ix2 p q)
      = x4 (ix2 0 q) := by
  rw [shapeCast_self]
  refine broadcastTo_apply _ _ _ _ (fun a => ?_)
  match a with
  | ⟨0, _⟩ => rfl
  | ⟨1, _⟩ => rfl

/-- The features' payload at `(p, q)`: the two products' sums, then the bias (both row blocks pass through a
    cast to their own shape first). -/
theorem pay1B_apply (x0 x1 : Vec Ideal S4000x64 .f32) (x3 x5 : Vec Ideal S64x64 .f32) (x4 : Vec Ideal S1x64 .f32)
    (p : Fin 4000) (q : Fin 64) :
    k1_pay1 x0 x1 x3 x5 x4 (ix2 p q)
      = (∑ k : Fin 64, x0 (ix2 p k) * x3 (ix2 k q) + ∑ k : Fin 64, x1 (ix2 p k) * x5 (ix2 k q)) + x4 (ix2 0 q) := by
  unfold k1_pay1
  simp only [matmul]
  rw [addf_apply, addf_apply, biasRowB_apply, dotB_eq, Dot2.matmul_zero_mm_apply, Dot2.matmul_zero_mm_apply,
    shapeCast_self, shapeCast_self]
  rfl

/-- The residual's payload at an index: the residual in, plus the features' payload times the layer's scale. -/
theorem pay2B_apply (x0 x1 x2 : Vec Ideal S4000x64 .f32) (x3 x5 : Vec Ideal S64x64 .f32) (x4 : Vec Ideal S1x64 .f32)
    (y : S4000x64.Idx) :
    k1_pay2 x0 x1 x3 x5 x4 x2 y = x2 y + k1_pay1 x0 x1 x3 x5 x4 y * Ideal.ofBits .f32 Cert.Spec.halfW := by
  unfold k1_pay2
  rw [shapeCast_self]
  rfl

/-! ## The windows' blocks, read off the arrays

Each printed index map over the grid, decided once: the three row-block inputs and the two outputs sit at block row
`t`, block column `0`; the weights and the bias row sit at block `(0, 0)` at every point. A block's coordinate on
an axis is its block index times the block's size plus the coordinate inside the block. -/

theorem idxB_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- The incoming features' block at point `t` is rows `4000 t … 4000 t + 3999` of their array. -/
theorem rowsB0_apply (c : Dev nD) (t : Fin cfg1.N) (y : S4000x64.Idx) (i : S100000x64.Idx)
    (h0 : (i 0).val = 4000 * t.val + (y 0).val) (h1 : (i 1).val = (y 1).val) :
    (iblk1 (F := Ideal) V c 0 t : Vec Ideal S4000x64 .f32) y = (V c main_v23_0 : S100000x64.Idx → EReal) i := by
  obtain ⟨e0, e1, -⟩ := idxB_facts t
  unfold iblk1
  rw [View.read_apply]
  show V c main_v23_0 _ = V c main_v23_0 _
  congr 1
  funext a
  apply Fin.ext
  match a with
  | ⟨0, _⟩ => show win1_0.index t (0 : Fin 2) * 4000 + 1 * (y 0).val = (i 0).val; omega
  | ⟨1, _⟩ => show win1_0.index t (1 : Fin 2) * 64 + 1 * (y 1).val = (i 1).val; omega

/-- The neighbourhood means' block at point `t` is the same rows of their array. -/
theorem rowsB1_apply (c : Dev nD) (t : Fin cfg1.N) (y : S4000x64.Idx) (i : S100000x64.Idx)
    (h0 : (i 0).val = 4000 * t.val + (y 0).val) (h1 : (i 1).val = (y 1).val) :
    (iblk1 (F := Ideal) V c 1 t : Vec Ideal S4000x64 .f32) y = (V c main_v35 : S100000x64.Idx → EReal) i := by
  obtain ⟨-, -, e0, e1, -⟩ := idxB_facts t
  unfold iblk1
  rw [View.read_apply]
  show V c main_v35 _ = V c main_v35 _
  congr 1
  funext a
  apply Fin.ext
  match a with
  | ⟨0, _⟩ => show win1_1.index t (0 : Fin 2) * 4000 + 1 * (y 0).val = (i 0).val; omega
  | ⟨1, _⟩ => show win1_1.index t (1 : Fin 2) * 64 + 1 * (y 1).val = (i 1).val; omega

/-- The residual's block at point `t` is the same rows of the array it comes in. -/
theorem rowsB2_apply (c : Dev nD) (t : Fin cfg1.N) (y : S4000x64.Idx) (i : S100000x64.Idx)
    (h0 : (i 0).val = 4000 * t.val + (y 0).val) (h1 : (i 1).val = (y 1).val) :
    (iblk1 (F := Ideal) V c 2 t : Vec Ideal S4000x64 .f32) y = (V c main_v23_1 : S100000x64.Idx → EReal) i := by
  obtain ⟨-, -, -, -, e0, e1, -⟩ := idxB_facts t
  unfold iblk1
  rw [View.read_apply]
  show V c main_v23_1 _ = V c main_v23_1 _
  congr 1
  funext a
  apply Fin.ext
  match a with
  | ⟨0, _⟩ => show win1_2.index t (0 : Fin 2) * 4000 + 1 * (y 0).val = (i 0).val; omega
  | ⟨1, _⟩ => show win1_2.index t (1 : Fin 2) * 64 + 1 * (y 1).val = (i 1).val; omega

/-- The first weight matrix is read whole at every point. -/
theorem wholeB3_apply (c : Dev nD) (t : Fin cfg1.N) (y : S64x64.Idx) (i : S64x64.Idx)
    (h0 : (i 0).val = (y 0).val) (h1 : (i 1).val = (y 1).val) :
    (iblk1 (F := Ideal) V c 3 t : Vec Ideal S64x64 .f32) y = (V c main_arg6 : S64x64.Idx → EReal) i := by
  obtain ⟨-, -, -, -, -, -, e0, e1, -⟩ := idxB_facts t
  unfold iblk1
  rw [View.read_apply]
  show V c main_arg6 _ = V c main_arg6 _
  congr 1
  funext a
  apply Fin.ext
  match a with
  | ⟨0, _⟩ => show win1_3.index t (0 : Fin 2) * 64 + 1 * (y 0).val = (i 0).val; omega
  | ⟨1, _⟩ => show win1_3.index t (1 : Fin 2) * 64 + 1 * (y 1).val = (i 1).val; omega

/-- The bias row is read whole at every point. -/
theorem wholeB4_apply (c : Dev nD) (t : Fin cfg1.N) (y : S1x64.Idx) (i : S1x64.Idx)
    (h0 : (i 0).val = (y 0).val) (h1 : (i 1).val = (y 1).val) :
    (iblk1 (F := Ideal) V c 4 t : Vec Ideal S1x64 .f32) y = (V c main_v10 : S1x64.Idx → EReal) i := by
  obtain ⟨-, -, -, -, -, -, -, -, e0, e1, -⟩ := idxB_facts t
  unfold iblk1
  rw [View.read_apply]
  show V c main_v10 _ = V c main_v10 _
  congr 1
  funext a
  apply Fin.ext
  match a with
  | ⟨0, _⟩ => show win1_4.index t (0 : Fin 2) * 1 + 1 * (y 0).val = (i 0).val; omega
  | ⟨1, _⟩ => show win1_4.index t (1 : Fin 2) * 64 + 1 * (y 1).val = (i 1).val; omega

/-- The second weight matrix is read whole at every point. -/
theorem wholeB5_apply (c : Dev nD) (t : Fin cfg1.N) (y : S64x64.Idx) (i : S64x64.Idx)
    (h0 : (i 0).val = (y 0).val) (h1 : (i 1).val = (y 1).val) :
    (iblk1 (F := Ideal) V c 5 t : Vec Ideal S64x64 .f32) y = (V c main_arg8 : S64x64.Idx → EReal) i := by
  obtain ⟨-, -, -, -, -, -, -, -, -, -, e0, e1, -⟩ := idxB_facts t
  unfold iblk1
  rw [View.read_apply]
  show V c main_arg8 _ = V c main_arg8 _
  congr 1
  funext a
  apply Fin.ext
  match a with
  | ⟨0, _⟩ => show win1_5.index t (0 : Fin 2) * 64 + 1 * (y 0).val = (i 0).val; omega
  | ⟨1, _⟩ => show win1_5.index t (1 : Fin 2) * 64 + 1 * (y 1).val = (i 1).val; omega

/-! ## What a point writes back -/

/-- The features' payload of the blocks at point `t`, at `(p, q)`, is the layer's features at any array index `i`
    with row `4000 t + p` and column `q`. -/
theorem featB_at (c : Dev nD) (t : Fin cfg1.N) (p : Fin 4000) (q : Fin 64) (i : S100000x64.Idx)
    (hi0 : (i 0).val = 4000 * t.val + p.val) (hi1 : (i 1).val = q.val) :
    k1_pay1 (iblk1 (F := Ideal) V c 0 t) (iblk1 V c 1 t) (iblk1 V c 3 t) (iblk1 V c 5 t) (iblk1 V c 4 t) (ix2 p q)
      = Cert.Spec.feat (V c main_v23_0) (V c main_v35) (V c main_arg6) (V c main_v10) (V c main_arg8) i := by
  refine (pay1B_apply _ _ _ _ _ p q).trans ?_
  unfold Cert.Spec.feat
  refine congrArg₂ (· + ·) (congrArg₂ (· + ·)
    (Finset.sum_congr rfl fun k _ => congrArg₂ (· * ·) ?_ ?_)
    (Finset.sum_congr rfl fun k _ => congrArg₂ (· * ·) ?_ ?_)) ?_
  · exact rowsB0_apply V c t (ix2 p k) (ix2 (i 0) k) hi0 rfl
  · exact wholeB3_apply V c t (ix2 k q) (ix2 k (i 1)) rfl hi1
  · exact rowsB1_apply V c t (ix2 p k) (ix2 (i 0) k) hi0 rfl
  · exact wholeB5_apply V c t (ix2 k q) (ix2 k (i 1)) rfl hi1
  · exact wholeB4_apply V c t (ix2 0 q) (ix2 0 (i 1)) rfl hi1

/-- The array index of a block index of an output window at point `t`: row `4000 t + p`, column `q`. -/
theorem outIdxB6 (t : Fin cfg1.N) (p : Fin 4000) (q : Fin 64) :
    ((((cfg1.win 6).blk t).view.emb (ix2 p q) : S100000x64.Idx) 0).val = 4000 * t.val + p.val
      ∧ ((((cfg1.win 6).blk t).view.emb (ix2 p q) : S100000x64.Idx) 1).val = q.val := by
  obtain ⟨-, -, -, -, -, -, -, -, -, -, -, -, e0, e1, -⟩ := idxB_facts t
  constructor
  · show win1_6.index t (0 : Fin 2) * 4000 + 1 * p.val = _; omega
  · show win1_6.index t (1 : Fin 2) * 64 + 1 * q.val = _; omega

theorem outIdxB7 (t : Fin cfg1.N) (p : Fin 4000) (q : Fin 64) :
    ((((cfg1.win 7).blk t).view.emb (ix2 p q) : S100000x64.Idx) 0).val = 4000 * t.val + p.val
      ∧ ((((cfg1.win 7).blk t).view.emb (ix2 p q) : S100000x64.Idx) 1).val = q.val := by
  obtain ⟨-, -, -, -, -, -, -, -, -, -, -, -, -, -, e0, e1⟩ := idxB_facts t
  constructor
  · show win1_7.index t (0 : Fin 2) * 4000 + 1 * p.val = _; omega
  · show win1_7.index t (1 : Fin 2) * 64 + 1 * q.val = _; omega

/-- What point `t` writes back to the features' array is block `t` of the layer's features. -/
theorem flushedB6_eq (c : Dev nD) (t : Fin cfg1.N) :
    (dat1 (F := Ideal) V c).flushed 6 t
      = ((cfg1.win 6).blk t).view.read (Elt Ideal)
          (Cert.Spec.feat (V c main_v23_0) (V c main_v35) (V c main_arg6) (V c main_v10) (V c main_arg8)) := by
  show (cfg1.win 6).cut (grid1.coords t) ((dat1 V c).after 6 t) = _
  rw [after1_6]
  unfold out1_6
  rw [View.canon_unit_zero zeroOffB]
  simp only [View.ld_unit_zero (S := S4000x64) zeroOffB, View.ld_unit_zero (S := S64x64) zeroOffB,
    View.ld_unit_zero (S := S1x64) zeroOffB]
  refine funext fun (y : S4000x64.Idx) => ?_
  obtain ⟨p, q, rfl⟩ : ∃ (p : Fin 4000) (q : Fin 64), y = ix2 p q := ⟨y 0, y 1, eq_ix2 y⟩
  rw [View.read_apply]
  exact featB_at V c t p q _ (outIdxB6 t p q).1 (outIdxB6 t p q).2

/-- What point `t` writes back to the residual's array is block `t` of the residual in plus the scaled features. -/
theorem flushedB7_eq (c : Dev nD) (t : Fin cfg1.N) :
    (dat1 (F := Ideal) V c).flushed 7 t
      = ((cfg1.win 7).blk t).view.read (Elt Ideal)
          (Cert.Spec.resid (Ideal.ofBits .f32 Cert.Spec.halfW) (V c main_v23_1)
            (Cert.Spec.feat (V c main_v23_0) (V c main_v35) (V c main_arg6) (V c main_v10) (V c main_arg8))) := by
  show (cfg1.win 7).cut (grid1.coords t) ((dat1 V c).after 7 t) = _
  rw [after1_7]
  unfold out1_7
  rw [View.canon_unit_zero zeroOffB]
  simp only [View.ld_unit_zero (S := S4000x64) zeroOffB, View.ld_unit_zero (S := S64x64) zeroOffB,
    View.ld_unit_zero (S := S1x64) zeroOffB]
  refine funext fun (y : S4000x64.Idx) => ?_
  obtain ⟨p, q, rfl⟩ : ∃ (p : Fin 4000) (q : Fin 64), y = ix2 p q := ⟨y 0, y 1, eq_ix2 y⟩
  rw [View.read_apply]
  refine (pay2B_apply _ _ _ _ _ _ (ix2 p q)).trans ?_
  unfold Cert.Spec.resid
  refine congrArg₂ (· + ·) ?_ (congrArg (· * Ideal.ofBits .f32 Cert.Spec.halfW) ?_)
  · exact rowsB2_apply V c t (ix2 p q) _ (outIdxB7 t p q).1 (outIdxB7 t p q).2
  · exact featB_at V c t p q _ (outIdxB7 t p q).1 (outIdxB7 t p q).2

/-! ## The blocks tile the array -/

/-- An index of the array is in point `t`'s block iff each coordinate is in the block's range on its axis. -/
theorem mem_blkB6 (t : Fin cfg1.N) (i : S100000x64.Idx) :
    i ∈ ((cfg1.win 6).blk t).view.set ↔ ∀ a : Fin 2, win1_6.index t a * S4000x64.size a ≤ (i a).val
      ∧ (i a).val < win1_6.index t a * S4000x64.size a + S4000x64.size a := by
  show i ∈ ((View.whole main_v36_0).slice (win1_6.rect t)).set ↔ _
  rw [View.set_slice_whole, Rect.mem_set_unit]
  exact Iff.rfl

theorem mem_blkB7 (t : Fin cfg1.N) (i : S100000x64.Idx) :
    i ∈ ((cfg1.win 7).blk t).view.set ↔ ∀ a : Fin 2, win1_7.index t a * S4000x64.size a ≤ (i a).val
      ∧ (i a).val < win1_7.index t a * S4000x64.size a + S4000x64.size a := by
  show i ∈ ((View.whole main_v36_1).slice (win1_7.rect t)).set ↔ _
  rw [View.set_slice_whole, Rect.mem_set_unit]
  exact Iff.rfl

/-- Row `r` of the array lies in the block of point `r / 4000`: the 25 row blocks tile the 100000 rows. -/
theorem coverB6 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 25 := N_1
  let t : Fin cfg1.N := ⟨(i 0).val / 4000, by rw [hN]; omega⟩
  have ht : t.val = (i 0).val / 4000 := rfl
  obtain ⟨-, -, -, -, -, -, -, -, -, -, -, -, e0, e1, -⟩ := idxB_facts t
  refine ⟨t, flush1_6 t, ?_⟩
  rw [mem_blkB6]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 64 ≤ (i 1).val ∧ (i 1).val < win1_6.index t (1 : Fin 2) * 64 + 64
    omega

theorem coverB7 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 25 := N_1
  let t : Fin cfg1.N := ⟨(i 0).val / 4000, by rw [hN]; omega⟩
  have ht : t.val = (i 0).val / 4000 := rfl
  obtain ⟨-, -, -, -, -, -, -, -, -, -, -, -, -, -, e0, e1⟩ := idxB_facts t
  refine ⟨t, flush1_7 t, ?_⟩
  rw [mem_blkB7]
  intro a
  match a with
  | ⟨0, _⟩ =>
    show win1_7.index t (0 : Fin 2) * 4000 ≤ (i 0).val ∧ (i 0).val < win1_7.index t (0 : Fin 2) * 4000 + 4000
    omega
  | ⟨1, _⟩ =>
    show win1_7.index t (1 : Fin 2) * 64 ≤ (i 1).val ∧ (i 1).val < win1_7.index t (1 : Fin 2) * 64 + 64
    omega

/-! ## The two output arrays when the region has run -/

/-- The features' array ends holding the layer's features of the arrays the region found. -/
theorem featB_eq (c : Dev nD) :
    (dat1 (F := Ideal) V c).arrAt 6 cfg1.N
      = Cert.Spec.feat (V c main_v23_0) (V c main_v35) (V c main_arg6) (V c main_v10) (V c main_arg8) :=
  (dat1 (F := Ideal) V c).arrAt_eq_of_cover 6 _ (fun t _ => flushedB6_eq V c t) coverB6

/-- The residual's array ends holding the residual in plus the layer's features times the layer's scale. -/
theorem resB_eq (c : Dev nD) :
    (dat1 (F := Ideal) V c).arrAt 7 cfg1.N
      = Cert.Spec.resid (Ideal.ofBits .f32 Cert.Spec.halfW) (V c main_v23_1)
          (Cert.Spec.feat (V c main_v23_0) (V c main_v35) (V c main_arg6) (V c main_v10) (V c main_arg8)) :=
  (dat1 (F := Ideal) V c).arrAt_eq_of_cover 7 _ (fun t _ => flushedB7_eq V c t) coverB7

end Cert.KernelIdeal.Hand

end
-- ==== Proof.Ideal.HostVals.lean ====
/-
  What the host operations around the two kernel calls compute, over the extended reals and for any contents of
  the buffers they start from.

  Before the first call the host forms, from the node features `h`, the edge sources and the edge targets: the
  aggregation of `h` (a gather of the rows named by the sources, wrapped into range, summed into the rows named by
  the targets), the clamped in-degree `D = max(deg, 1)` (a sum of ones into the targets, then the maximum with
  one), the reciprocal `1 / D` laid out as a column, the product of the aggregation with that column spread over
  the 64 features, and the two bias vectors laid out as rows. Between the two calls it forms the same product for
  the first call's output, with the column it had computed before. The gather and the sums are kept whole, as the
  operations `agg` and `degMax`: nothing here looks inside them.
-/
import proofs.«165216_j71700184039591_1_alg».proof.Proof.Gen.KernelIdeal.Launch
import proofs.«165216_j71700184039591_1_alg».proof.Proof.Gen.KernelIdeal.Regions
import proofs.«165216_j71700184039591_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 8192

noncomputable section

namespace Cert.KernelIdeal.Hand

open Idealize.ShloMosaic Idealize.ShloMosaic.TcCoe Idealize.ShloMosaic.ValueIdx Idealize.SL.Sem
open Cert.KernelIdeal Cert.KernelIdeal.Gen

/-- The edge aggregation of `x`: the rows of `x` at the edge sources (a negative source wrapped by the number of
    nodes), summed into a zero array at the edge targets. -/
def agg (src dst : (⟨S1200000, .i32⟩ : BufTy).Contents (Elt Ideal)) (x : (⟨S100000x64, .f32⟩ : BufTy).Contents (Elt Ideal)) :
    (⟨S100000x64, .f32⟩ : BufTy).Contents (Elt Ideal) :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 dst)
    (Host.gather gather_S100000x64_S1200000x1_S1200000x64_1_0_n_n_0_1_164 x
      (broadcastInDim S1200000x1 ![0] bcast_S1200000_S1200000x1_0
        (select (cmpi .slt src (broadcastInDim S1200000 ![] bcast_S_S1200000 (constantI S_ 32 0#32)))
          (addi src (broadcastInDim S1200000 ![] bcast_S_S1200000 (constantI S_ 32 100000#32))) src)))

/-- The clamped in-degree: ones summed into a zero vector at the edge targets, then the maximum with one. -/
def degMax (dst : (⟨S1200000, .i32⟩ : BufTy).Contents (Elt Ideal)) : (⟨S100000, .f32⟩ : BufTy).Contents (Elt Ideal) :=
  maximumf
    (Host.scatterAdd scatter_S100000_S1200000x1_S1200000_n_0_0_1
      (broadcastInDim S100000 ![] bcast_S_S100000 (constant (F := Ideal) S_ .f32 0x00000000#32))
      (broadcastInDim S1200000x1 ![0] bcast_S1200000_S1200000x1_0 dst)
      (broadcastInDim S1200000 ![] bcast_S_S1200000 (constant (F := Ideal) S_ .f32 0x3F800000#32)))
    (broadcastInDim S100000 ![] bcast_S_S100000 (constant (F := Ideal) S_ .f32 0x3F800000#32))

variable (W : Valuation τ sig (Elt Ideal))

/-! ## The layout operations read at an index -/

/-- A per-node column spread over the 64 features reads, at `(p, q)`, the column at `(p, 0)`. -/
theorem spread_apply (y : (⟨S100000x1, .f32⟩ : BufTy).Contents (Elt Ideal)) (i : S100000x64.Idx) :
    broadcastInDim S100000x64 ![0, 1] bcast_S100000x1_S100000x64_0_1 y i
      = y (ix2 (n0 := 100000) (n1 := 1) (i 0) 0) :=
  broadcastInDim_apply _ bcast_S100000x1_S100000x64_0_1 y i (ix2 (n0 := 100000) (n1 := 1) (i 0) 0) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A per-node vector laid out as a column reads, at `(p, 0)`, the vector at `p`. -/
theorem column_apply (y : (⟨S100000, .f32⟩ : BufTy).Contents (Elt Ideal)) (j : S100000x1.Idx) :
    broadcastInDim S100000x1 ![0] bcast_S100000_S100000x1_0 y j = y (ix1 (n := 100000) (j 0)) :=
  broadcastInDim_apply _ bcast_S100000_S100000x1_0 y j (ix1 (n := 100000) (j 0)) (fun a => match a with
    | ⟨0, _⟩ => by show (j 0).val = if (100000 : Nat) = 1 then 0 else (j 0).val; rw [if_neg (by decide)])

/-- A scalar constant spread over the nodes reads the extended real its word encodes. -/
theorem splat_apply (w : BitVec 32) (k : S100000.Idx) :
    broadcastInDim S100000 ![] bcast_S_S100000 (constant (F := Ideal) S_ .f32 w) k = Ideal.ofBits .f32 w :=
  broadcastInDim_apply _ bcast_S_S100000 (constant (F := Ideal) S_ .f32 w) k ix0 (fun a => a.elim0)

/-- The reciprocal of the clamped degree, as the host forms it, read at a node. -/
theorem recip_apply (D : (⟨S100000, .f32⟩ : BufTy).Contents (Elt Ideal)) (k : S100000.Idx) :
    Host.divf (broadcastInDim S100000 ![] bcast_S_S100000 (constant (F := Ideal) S_ .f32 0x3F800000#32)) D k
      = Ideal.div (Ideal.ofBits .f32 Cert.Spec.oneW) (D k) := by
  show FloatOps.hostDivf (broadcastInDim S100000 ![] bcast_S_S100000 (constant (F := Ideal) S_ .f32 0x3F800000#32) k) (D k) = _
  rw [splat_apply, Ideal.hostDivf_def]

/-- A 64-vector reshaped to a row reads, at `(0, q)`, the vector at `q`. -/
theorem row_apply (b : (⟨S64, .f32⟩ : BufTy).Contents (Elt Ideal)) :
    (shapeCast S1x64 b shapeCasts_S64_S1x64 : S1x64.Idx → EReal) = Cert.Spec.rowOf b := by
  funext i
  rw [eq_ix2 i]
  exact shapeCast_a_1a_apply b shapeCasts_S64_S1x64 (i 0) (i 1)

/-! ## The operations' composed terms -/

set_option maxHeartbeats 4000000 in
theorem v22_term :
    (StableHlo.after hostOps0 W (Proc.devRef .tc main_v22) : (⟨S100000x64, .f32⟩ : BufTy).Contents (Elt Ideal))
      = mulf (agg (W (Proc.devRef .tc main_arg1)) (W (Proc.devRef .tc main_arg2)) (W (Proc.devRef .tc main_arg0)))
          (broadcastInDim S100000x64 ![0, 1] bcast_S100000x1_S100000x64_0_1
            (broadcastInDim S100000x1 ![0] bcast_S100000_S100000x1_0
              (Host.divf (broadcastInDim S100000 ![] bcast_S_S100000 (constant (F := Ideal) S_ .f32 0x3F800000#32))
                (degMax (W (Proc.devRef .tc main_arg2)))))) := by
  after_results_simp
  rfl

set_option maxHeartbeats 4000000 in
theorem v8_term :
    (StableHlo.after hostOps0 W (Proc.devRef .tc main_v8) : (⟨S100000x1, .f32⟩ : BufTy).Contents (Elt Ideal))
      = broadcastInDim S100000x1 ![0] bcast_S100000_S100000x1_0
          (Host.divf (broadcastInDim S100000 ![] bcast_S_S100000 (constant (F := Ideal) S_ .f32 0x3F800000#32))
            (degMax (W (Proc.devRef .tc main_arg2)))) := by
  after_results_simp
  rfl

set_option maxHeartbeats 4000000 in
theorem v9_term :
    (StableHlo.after hostOps0 W (Proc.devRef .tc main_v9) : (⟨S1x64, .f32⟩ : BufTy).Contents (Elt Ideal))
      = shapeCast S1x64 (W (Proc.devRef .tc main_arg4) : (⟨S64, .f32⟩ : BufTy).Contents (Elt Ideal)) shapeCasts_S64_S1x64 := by
  after_results_simp
  rfl

set_option maxHeartbeats 4000000 in
theorem v10_term :
    (StableHlo.after hostOps0 W (Proc.devRef .tc main_v10) : (⟨S1x64, .f32⟩ : BufTy).Contents (Elt Ideal))
      = shapeCast S1x64 (W (Proc.devRef .tc main_arg7) : (⟨S64, .f32⟩ : BufTy).Contents (Elt Ideal)) shapeCasts_S64_S1x64 := by
  after_results_simp
  rfl

set_option maxHeartbeats 4000000 in
theorem v35_term :
    (StableHlo.after hostOps1 W (Proc.devRef .tc main_v35) : (⟨S100000x64, .f32⟩ : BufTy).Contents (Elt Ideal))
      = (mulf (F := Ideal) (φ := .f32) (agg (W (Proc.devRef .tc main_arg1)) (W (Proc.devRef .tc main_arg2)) (W (Proc.devRef .tc main_v23_0)))
          (broadcastInDim S100000x64 ![0, 1] bcast_S100000x1_S100000x64_0_1
            (W (Proc.devRef .tc main_v8) : (⟨S100000x1, .f32⟩ : BufTy).Contents (Elt Ideal)))
          : (⟨S100000x64, .f32⟩ : BufTy).Contents (Elt Ideal)) := by
  after_results_simp
  rfl

/-! ## The values -/

/-- The neighbourhood means the first call reads: the aggregation of the node features times the reciprocal of the
    clamped degree. -/
theorem v22_eq :
    (StableHlo.after hostOps0 W (Proc.devRef .tc main_v22) : S100000x64.Idx → EReal)
      = Cert.Spec.meanMul (agg (W (Proc.devRef .tc main_arg1)) (W (Proc.devRef .tc main_arg2)) (W (Proc.devRef .tc main_arg0)))
          (degMax (W (Proc.devRef .tc main_arg2))) := by
  refine (v22_term W).trans ?_
  funext i
  refine (mulf_apply _ _ i).trans ?_
  refine congrArg (_ * ·) ?_
  refine (spread_apply _ i).trans ?_
  refine (column_apply _ _).trans ?_
  exact recip_apply _ _

/-- The reciprocal of the clamped degree as a column. -/
theorem v8_eq :
    (StableHlo.after hostOps0 W (Proc.devRef .tc main_v8) : S100000x1.Idx → EReal)
      = fun i => Ideal.div (Ideal.ofBits .f32 Cert.Spec.oneW) (degMax (W (Proc.devRef .tc main_arg2)) (ix1 (i 0))) := by
  refine (v8_term W).trans ?_
  funext i
  refine (column_apply _ i).trans ?_
  exact recip_apply _ _

/-- The first layer's bias as a row. -/
theorem v9_eq :
    (StableHlo.after hostOps0 W (Proc.devRef .tc main_v9) : S1x64.Idx → EReal) = Cert.Spec.rowOf (W (Proc.devRef .tc main_arg4)) :=
  (v9_term W).trans (row_apply _)

/-- The second layer's bias as a row. -/
theorem v10_eq :
    (StableHlo.after hostOps0 W (Proc.devRef .tc main_v10) : S1x64.Idx → EReal) = Cert.Spec.rowOf (W (Proc.devRef .tc main_arg7)) :=
  (v10_term W).trans (row_apply _)

/-- The neighbourhood means the second call reads: the aggregation of the first call's output times the column the
    host computed before the first call. -/
theorem v35_eq (D : (⟨S100000, .f32⟩ : BufTy).Contents (Elt Ideal))
    (h8 : (W (Proc.devRef .tc main_v8) : S100000x1.Idx → EReal) = fun i => Ideal.div (Ideal.ofBits .f32 Cert.Spec.oneW) (D (ix1 (i 0)))) :
    (StableHlo.after hostOps1 W (Proc.devRef .tc main_v35) : S100000x64.Idx → EReal)
      = Cert.Spec.meanMul (agg (W (Proc.devRef .tc main_arg1)) (W (Proc.devRef .tc main_arg2)) (W (Proc.devRef .tc main_v23_0))) D := by
  refine (v35_term W).trans ?_
  funext i
  refine (mulf_apply _ _ i).trans ?_
  refine congrArg (_ * ·) ?_
  refine (spread_apply _ i).trans ?_
  exact congrFun h8 _

/-! ## The clamped degree is nowhere zero -/

theorem one_pos' : (0 : EReal) < Ideal.ofBits .f32 0x3F800000#32 := by
  have e : Ideal.ofBits .f32 0x3F800000#32 = 1 := by simp [Ideal.ofBits, Ideal.ieee, -EReal.coe_mul]; norm_num
  rw [e]; exact zero_lt_one

/-- A maximum with one is at least one, so positive. -/
theorem degMax_ne_zero (dst : (⟨S1200000, .i32⟩ : BufTy).Contents (Elt Ideal)) (i : S100000.Idx) : degMax dst i ≠ 0 := by
  refine ne_of_gt ?_
  unfold degMax
  refine lt_of_lt_of_eq ?_ (maximumf_apply _ _ i).symm
  refine lt_max_of_lt_right ?_
  rw [splat_apply]
  exact one_pos'

end Cert.KernelIdeal.Hand

end
-- ==== Proof.Ideal.Result.lean ====
/-
  The idealized kernel program's result as one function of its argument arrays, over the extended reals.

  The result buffer is the second kernel's residual output. Read back through the run: it is the first kernel's
  residual output plus one half of the second layer's features; the first kernel's residual output is the node
  features plus the first layer's features; each layer's features are the two products plus the bias of that
  layer's input with the neighbourhood means the host formed for it — the edge aggregation of the layer's input
  times the reciprocal of the clamped in-degree, the same column for both layers. No host operation between the
  launch and a use writes an argument, and none after the first kernel writes its outputs before the second reads them.
-/
import proofs.«165216_j71700184039591_1_alg».proof.Proof.Ideal.MainRun
import proofs.«165216_j71700184039591_1_alg».proof.Proof.Ideal.ValueA
import proofs.«165216_j71700184039591_1_alg».proof.Proof.Ideal.ValueB
import proofs.«165216_j71700184039591_1_alg».proof.Proof.Ideal.HostVals

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The first layer's features, as the first kernel leaves them: a function of the launch memory. -/
theorem feat1_eq :
    (W2 m c main_v23_0 : S100000x64.Idx → EReal)
      = Cert.Spec.feat (m ((c : Thread nD τ).loc main_arg0))
          (Cert.Spec.meanMul (agg (m ((c : Thread nD τ).loc main_arg1)) (m ((c : Thread nD τ).loc main_arg2)) (m ((c : Thread nD τ).loc main_arg0)))
            (degMax (m ((c : Thread nD τ).loc main_arg2))))
          (m ((c : Thread nD τ).loc main_arg3)) (Cert.Spec.rowOf (m ((c : Thread nD τ).loc main_arg4))) (m ((c : Thread nD τ).loc main_arg5)) := by
  have e0 : V1 m c main_arg0 = m ((c : Thread nD τ).loc main_arg0) := W1_of m c main_arg0 (by decide)
  have e3 : V1 m c main_arg3 = m ((c : Thread nD τ).loc main_arg3) := W1_of m c main_arg3 (by decide)
  have e5 : V1 m c main_arg5 = m ((c : Thread nD τ).loc main_arg5) := W1_of m c main_arg5 (by decide)
  have e22 := v22_eq (W0 m c)
  have e9 := v9_eq (W0 m c)
  refine (W2_v23_0 m c).trans ((featA_eq (V1 m) c).trans ?_)
  rw [e0, e3, e5]
  exact congrArg₂ (fun nm b => Cert.Spec.feat _ nm _ b _) e22 e9

/-- The residual after the first layer. -/
theorem res1_eq :
    (W2 m c main_v23_1 : S100000x64.Idx → EReal)
      = Cert.Spec.resid (Ideal.ofBits .f32 Cert.Spec.oneW) (m ((c : Thread nD τ).loc main_arg0)) (W2 m c main_v23_0) := by
  have e0 : V1 m c main_arg0 = m ((c : Thread nD τ).loc main_arg0) := W1_of m c main_arg0 (by decide)
  refine (W2_v23_1 m c).trans ((resA_eq (V1 m) c).trans ?_)
  rw [W2_v23_0 m c, featA_eq (V1 m) c, e0]

/-- The program's result. -/
theorem result_eq :
    (W4 m c main_v36_1 : S100000x64.Idx → EReal)
      = Cert.Spec.kernelRes (agg (m ((c : Thread nD τ).loc main_arg1)) (m ((c : Thread nD τ).loc main_arg2))) (degMax (m ((c : Thread nD τ).loc main_arg2)))
          (m ((c : Thread nD τ).loc main_arg0)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  -- what the second kernel finds in its input arrays
  have f0 : V3 m c main_v23_0 = W2 m c main_v23_0 := W3_of m c main_v23_0 (by decide)
  have f2 : V3 m c main_v23_1 = W2 m c main_v23_1 := W3_of m c main_v23_1 (by decide)
  have f6 : V3 m c main_arg6 = m ((c : Thread nD τ).loc main_arg6) :=
    (W3_of m c main_arg6 (by decide)).trans ((W2_of_ne m c main_arg6 (by decide) (by decide)).trans (W1_of m c main_arg6 (by decide)))
  have f8 : V3 m c main_arg8 = m ((c : Thread nD τ).loc main_arg8) :=
    (W3_of m c main_arg8 (by decide)).trans ((W2_of_ne m c main_arg8 (by decide) (by decide)).trans (W1_of m c main_arg8 (by decide)))
  have f10 : (V3 m c main_v10 : S1x64.Idx → EReal) = Cert.Spec.rowOf (m ((c : Thread nD τ).loc main_arg7)) :=
    (W3_of m c main_v10 (by decide)).trans ((W2_of_ne m c main_v10 (by decide) (by decide)).trans (v10_eq (W0 m c)))
  have g1 : W2 m c main_arg1 = m ((c : Thread nD τ).loc main_arg1) := (W2_of_ne m c main_arg1 (by decide) (by decide)).trans (W1_of m c main_arg1 (by decide))
  have g2 : W2 m c main_arg2 = m ((c : Thread nD τ).loc main_arg2) := (W2_of_ne m c main_arg2 (by decide) (by decide)).trans (W1_of m c main_arg2 (by decide))
  have h8 : (W2 m c (Proc.devRef .tc main_v8) : S100000x1.Idx → EReal)
      = fun i => Ideal.div (Ideal.ofBits .f32 Cert.Spec.oneW) (degMax (m ((c : Thread nD τ).loc main_arg2)) (ix1 (i 0))) :=
    (W2_of_ne m c main_v8 (by decide) (by decide)).trans (v8_eq (W0 m c))
  have f35 := v35_eq (W2 m c) (degMax (m ((c : Thread nD τ).loc main_arg2))) h8
  rw [g1, g2] at f35
  refine (W4_v36_1 m c).trans ((resB_eq (V3 m) c).trans ?_)
  rw [f0, f2, f6, f8]
  unfold Cert.Spec.kernelRes
  rw [res1_eq m c, feat1_eq m c]
  exact congrArg₂ (fun nm b => Cert.Spec.resid _ _ (Cert.Spec.feat _ nm _ b _)) (f35.trans (by rw [feat1_eq m c])) f10

end Cert.KernelIdeal.Hand

end
-- ==== Proof.RefValue.lean ====
/-
  The reference's result read index by index.

  The reference computes, for node features h (100000 × 64), two layers
      lin(x)[p, q] = (∑ₖ x[p, k]·Ws[k, q] + b[q]) + ∑ₖ (agg x)[p, k] / D[p] · Wn[k, q],
  where agg x gathers the rows of x along the (wrapped) edge sources and sums them into the edge targets, and
  D[p] = max(deg[p], 1) is the clamped in-degree, and returns h + lin₀(h) / 1 + lin₁(lin₀(h)) / 2.

  The array-level term the run ends at is that expression written with whole-array operations: a matrix product is
  read at (p, q) as the sum over the contracted coordinate, a row or column broadcast as the operand at the kept
  coordinate, a splat constant as its value, and sums and quotients elementwise. The aggregation and the degree count
  are kept as opaque functions of their operands: nothing below looks inside a gather or a scatter.
-/
import proofs.«165216_j71700184039591_1_alg».proof.Proof.Gen.ReferenceIdeal.Run
import proofs.«165216_j71700184039591_1_alg».proof.Proof.Gen.ReferenceIdeal.Read
import proofs.«165216_j71700184039591_1_alg».proof.Proof.Spec
import proofs.«165216_j71700184039591_1_alg».proof.Proof.LibDot2
import Idealize.ShloMosaic.PureOps.Ideal
import Idealize.ShloMosaic.PureOps.Ideal.Laws
import Idealize.ShloMosaic.Lib.ValueIdx
import Idealize.ShloMosaic.Lib.ValueIdxCoords
import Idealize.ShloMosaic.Lib.Pipeline.Value

noncomputable section

open scoped BigOperators

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

/-! ## The two opaque host functions -/

/-- The edge aggregation: rows of x gathered along the (wrapped) edge sources and summed into the edge targets. -/
def agg (src dst : (⟨S1200000, .i32⟩ : BufTy).Contents (Elt Ideal)) (x : (⟨S100000x64, .f32⟩ : BufTy).Contents (Elt Ideal)) : (⟨S100000x64, .f32⟩ : BufTy).Contents (Elt Ideal) :=
  Host.scatterAdd scatter_S100000x64_S1200000x1_S1200000x64_1_0_0_1 (broadcastInDim S100000x64 ![] bcast_S_S100000x64 (constant (F := Ideal) S_ .f32 0x00000000#32)) (broadcastInDim S1200000x1 ![0] bcast_S1200000_S1200000x1_0 dst)
    (Host.gather gather_S100000x64_S1200000x1_S1200000x64_1_0_n_n_0_1_164 x (broadcastInDim S1200000x1 ![0] bcast_S1200000_S1200000x1_0 (select (cmpi .slt src (broadcastInDim S1200000 ![] bcast_S_S1200000 (constantI S_ 32 0#32))) (addi src (broadcastInDim S1200000 ![] bcast_S_S1200000 (constantI S_ 32 100000#32))) src)))

/-- The clamped in-degree max(deg, 1). -/
def degMax (dst : (⟨S1200000, .i32⟩ : BufTy).Contents (Elt Ideal)) : (⟨S100000, .f32⟩ : BufTy).Contents (Elt Ideal) :=
  maximumf (Host.scatterAdd scatter_S100000_S1200000x1_S1200000_n_0_0_1 (broadcastInDim S100000 ![] bcast_S_S100000 (constant (F := Ideal) S_ .f32 0x00000000#32)) (broadcastInDim S1200000x1 ![0] bcast_S1200000_S1200000x1_0 dst) (broadcastInDim S1200000 ![] bcast_S_S1200000 (constant (F := Ideal) S_ .f32 0x3F800000#32))) (broadcastInDim S100000 ![] bcast_S_S100000 (constant (F := Ideal) S_ .f32 0x3F800000#32))

/-! ## Whole-array operations read at an index -/

/-- The matrix product of a 100000 × 64 array by a 64 × 64 one, at (p, q): the sum over the contracted coordinate. -/
theorem dot_apply (l : FVec Ideal S100000x64 .f32) (r : FVec Ideal S64x64 .f32) (p : Fin 100000) (q : Fin 64) :
    Host.dotGeneral (F := Ideal) dot_S100000x64_S64x64_S100000x64_1_0_0_1_n_n none l r (ix2 p q) = ∑ k : Fin 64, l (ix2 p k) * r (ix2 k q) :=
  Dot2.host_dotGeneral_mm_apply dot_S100000x64_S64x64_S100000x64_1_0_0_1_n_n_wf none l r p q

/-- A vector of 64 laid out as a row and repeated down the 100000 rows, at (p, q): its q-th entry. -/
theorem rowBcast_apply (b : FVec Ideal S64 .f32) (p : Fin 100000) (q : Fin 64) :
    broadcastInDim S100000x64 ![0, 1] bcast_S1x64_S100000x64_0_1 (broadcastInDim S1x64 ![1] bcast_S64_S1x64_1 b) (ix2 p q) = b (ix1 q) := by
  refine (broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- A vector of 100000 laid out as a column and repeated along the 64 columns, at (p, q): its p-th entry. -/
theorem colBcast_apply (d : FVec Ideal S100000 .f32) (p : Fin 100000) (q : Fin 64) :
    broadcastInDim S100000x64 ![0, 1] bcast_S100000x1_S100000x64_0_1 (broadcastInDim S100000x1 ![0] bcast_S100000_S100000x1_0 d) (ix2 p q) = d (ix1 p) := by
  refine (broadcastInDim_apply _ bcast_S100000x1_S100000x64_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  exact broadcastInDim_apply _ bcast_S100000_S100000x1_0 d (ix2 p (0 : Fin 1)) (ix1 p) (fun a => match a with
    | ⟨0, _⟩ => by show p.val = if (100000 : Nat) = 1 then 0 else p.val; rw [if_neg (by decide)])

/-- A scalar constant repeated over the 100000 × 64 array, at any index: the extended real its word denotes. -/
theorem splat2_apply (w : BitVec 32) (i : S100000x64.Idx) :
    broadcastInDim S100000x64 ![] bcast_S_S100000x64 (constant (F := Ideal) S_ .f32 w) i = Ideal.ofBits .f32 w :=
  broadcastInDim_apply _ bcast_S_S100000x64 (constant (F := Ideal) S_ .f32 w) i (fun a => a.elim0) (fun a => a.elim0)

/-- A scalar constant repeated over the vector of 100000, at any index: the extended real its word denotes. -/
theorem splat1_apply (w : BitVec 32) (i : S100000.Idx) :
    broadcastInDim S100000 ![] bcast_S_S100000 (constant (F := Ideal) S_ .f32 w) i = Ideal.ofBits .f32 w :=
  broadcastInDim_apply _ bcast_S_S100000 (constant (F := Ideal) S_ .f32 w) i (fun a => a.elim0) (fun a => a.elim0)

/-- The host's quotient of two arrays at an index: the quotient of the entries. -/
theorem hdiv_apply {s : Shape} {φ : FTy} (a b : FVec Ideal s φ) (i : s.Idx) : Host.divf (F := Ideal) a b i = Ideal.div (a i) (b i) := rfl

/-- The product whose left operand is a quotient of two arrays, at (p, q): the sum of the quotients of the entries times the right operand's. -/
theorem dot_hdiv_apply (a d : FVec Ideal S100000x64 .f32) (r : FVec Ideal S64x64 .f32) (p : Fin 100000) (q : Fin 64) :
    Host.dotGeneral (F := Ideal) dot_S100000x64_S64x64_S100000x64_1_0_0_1_n_n none (Host.divf (F := Ideal) a d) r (ix2 p q)
      = ∑ k : Fin 64, Ideal.div (a (ix2 p k)) (d (ix2 p k)) * r (ix2 k q) :=
  dot_apply (Host.divf (F := Ideal) a d) r p q

/-- An array over a scalar constant repeated everywhere, at an index: the entry over the constant's value. -/
theorem hdiv_splat_apply (a : FVec Ideal S100000x64 .f32) (w : BitVec 32) (i : S100000x64.Idx) :
    Host.divf (F := Ideal) a (broadcastInDim S100000x64 ![] bcast_S_S100000x64 (constant (F := Ideal) S_ .f32 w)) i = Ideal.div (a i) (Ideal.ofBits .f32 w) :=
  (hdiv_apply a _ i).trans (congrArg (Ideal.div (a i)) (splat2_apply w i))

/-! ## One layer -/

/-- One layer as the reference writes it with whole-array operations, over the features x it is applied to. -/
def layer (src dst : (⟨S1200000, .i32⟩ : BufTy).Contents (Elt Ideal)) (x : FVec Ideal S100000x64 .f32)
    (Ws : FVec Ideal S64x64 .f32) (b : FVec Ideal S64 .f32) (Wn : FVec Ideal S64x64 .f32) :
    FVec Ideal S100000x64 .f32 :=
  addf (addf (Host.dotGeneral (F := Ideal) dot_S100000x64_S64x64_S100000x64_1_0_0_1_n_n none x Ws) (broadcastInDim S100000x64 ![0, 1] bcast_S1x64_S100000x64_0_1 (broadcastInDim S1x64 ![1] bcast_S64_S1x64_1 b)))
    (Host.dotGeneral (F := Ideal) dot_S100000x64_S64x64_S100000x64_1_0_0_1_n_n none (Host.divf (F := Ideal) (φ := .f32) (agg src dst x) (broadcastInDim S100000x64 ![0, 1] bcast_S100000x1_S100000x64_0_1 (broadcastInDim S100000x1 ![0] bcast_S100000_S100000x1_0 (degMax dst)))) Wn)

/-- The layer index by index: the self product plus the bias, plus the product of the neighbourhood means. -/
theorem layer_eq (src dst : (⟨S1200000, .i32⟩ : BufTy).Contents (Elt Ideal)) (x : FVec Ideal S100000x64 .f32)
    (Ws : FVec Ideal S64x64 .f32) (b : FVec Ideal S64 .f32) (Wn : FVec Ideal S64x64 .f32) :
    layer src dst x Ws b Wn = Cert.Spec.featRef x (Cert.Spec.meanDiv (agg src dst x) (degMax dst)) Ws b Wn := by
  funext i
  obtain ⟨p, q, rfl⟩ : ∃ (p : Fin 100000) (q : Fin 64), i = ix2 p q := ⟨i 0, i 1, eq_ix2 i⟩
  unfold layer
  generalize agg src dst x = S
  generalize degMax dst = D
  rw [addf_apply, addf_apply, dot_apply, dot_hdiv_apply, rowBcast_apply]
  simp only [Cert.Spec.featRef, Cert.Spec.meanDiv, ix2_0, ix2_1]
  refine congrArg (HAdd.hAdd _) (Finset.sum_congr rfl fun k _ => ?_)
  rw [colBcast_apply]

/-! ## The whole result -/

/-- The result as the reference writes it with whole-array operations: the features plus the first layer's output
    over one plus the second layer's output (of the first's) over two. -/
def resTerm (src dst : (⟨S1200000, .i32⟩ : BufTy).Contents (Elt Ideal)) (h : FVec Ideal S100000x64 .f32)
    (Ws0 : FVec Ideal S64x64 .f32) (b0 : FVec Ideal S64 .f32) (Wn0 Ws1 : FVec Ideal S64x64 .f32) (b1 : FVec Ideal S64 .f32) (Wn1 : FVec Ideal S64x64 .f32) :
    FVec Ideal S100000x64 .f32 :=
  addf (addf h (Host.divf (F := Ideal) (layer src dst h Ws0 b0 Wn0) (broadcastInDim S100000x64 ![] bcast_S_S100000x64 (constant (F := Ideal) S_ .f32 0x3F800000#32))))
    (Host.divf (F := Ideal) (layer src dst (layer src dst h Ws0 b0 Wn0) Ws1 b1 Wn1) (broadcastInDim S100000x64 ![] bcast_S_S100000x64 (constant (F := Ideal) S_ .f32 0x40000000#32)))

/-- Index by index it is the specification's arrangement of the reference. -/
theorem resTerm_eq (src dst : (⟨S1200000, .i32⟩ : BufTy).Contents (Elt Ideal)) (h : FVec Ideal S100000x64 .f32)
    (Ws0 : FVec Ideal S64x64 .f32) (b0 : FVec Ideal S64 .f32) (Wn0 Ws1 : FVec Ideal S64x64 .f32) (b1 : FVec Ideal S64 .f32) (Wn1 : FVec Ideal S64x64 .f32) :
    resTerm src dst h Ws0 b0 Wn0 Ws1 b1 Wn1 = Cert.Spec.refRes (agg src dst) (degMax dst) h Ws0 b0 Wn0 Ws1 b1 Wn1 := by
  funext i
  unfold resTerm
  rw [layer_eq src dst h Ws0 b0 Wn0, layer_eq]
  rw [addf_apply, addf_apply, hdiv_splat_apply, hdiv_splat_apply]
  simp only [Cert.Spec.refRes]

/-- The run's composed term is that expression of the nine arguments: the two sides differ only by the names
    given above to the aggregation, the clamped degree, the layer and the closing combination. -/
theorem res_unfold (m : (ℓ : Loc nD τ sig) → Buf (Elt Ideal) ℓ) (c : Dev nD) :
    Cert.ReferenceIdeal.Value.res_main_v55 (F := Ideal) m c
      = resTerm (m ((c.tc : Thread nD τ).loc main_arg1)) (m ((c.tc : Thread nD τ).loc main_arg2)) (m ((c.tc : Thread nD τ).loc main_arg0))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := rfl

/-- The reference's result, index by index. -/
theorem res_eq (m : (ℓ : Loc nD τ sig) → Buf (Elt Ideal) ℓ) (c : Dev nD) :
    Cert.ReferenceIdeal.Value.res_main_v55 (F := Ideal) m c
      = Cert.Spec.refRes (agg (m ((c.tc : Thread nD τ).loc main_arg1)) (m ((c.tc : Thread nD τ).loc main_arg2))) (degMax (m ((c.tc : Thread nD τ).loc main_arg2)))
          (m ((c.tc : Thread nD τ).loc main_arg0)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) :=
  (res_unfold m c).trans (resTerm_eq _ _ _ _ _ _ _ _ _)

/-! ## The clamped degree is nowhere zero -/

/-- The word 0x3F800000 denotes one. -/
theorem ofBits_one : Ideal.ofBits .f32 0x3F800000#32 = 1 := by
  simp [Ideal.ofBits, Ideal.ieee, -EReal.coe_mul]; norm_num

/-- A maximum with one is at least one, so it is not zero. -/
theorem degMax_ne_zero (dst : (⟨S1200000, .i32⟩ : BufTy).Contents (Elt Ideal)) (i : S100000.Idx) : degMax dst i ≠ 0 := by
  unfold degMax
  rw [maximumf_apply, splat1_apply, ofBits_one]
  exact (lt_of_lt_of_le zero_lt_one (le_max_right _ _)).ne'

end Cert.ReferenceIdeal.RefValue

end
-- ==== Proof.lean ====
/-
  The certificate: the kernel program (two host stretches around two pipelined combine kernels) against the plain
  reference, a two-layer mean-aggregation network.

  Frames. The kernel program, word-level and idealized alike, is run item by item from its launch memory: each host
  stretch over the held buffers, each kernel as a pipelined region whose body loads its six input blocks whole and
  stores its two output blocks whole; every execution terminates without a fault and no item writes an argument. The
  reference is a straight line of host operations; its frame is its run with the result dropped.

  The idealization rewrote nothing, so it preserves the program trivially.

  Values, over the extended reals. The kernel program's result is `kernelRes` of its arguments (the kernels' blocks
  tile their arrays, so each output array is one function of the input arrays; the host operations between them are
  read at an index, the edge gather and scatter-add kept whole). The reference's result is `refRes` of its arguments.
  The two arrangements differ in where the bias is added, in multiplying by the reciprocal of the clamped in-degree
  against dividing by it, and in scaling by `1` and `1/2` against dividing by `1` and `2`; they agree because the
  clamped degree, a maximum with one, is never zero.
-/
import proofs.«165216_j71700184039591_1_alg».proof.Defs
import proofs.«165216_j71700184039591_1_alg».proof.Proof.Gen.Kernel
import proofs.«165216_j71700184039591_1_alg».proof.Proof.Gen.KernelIdeal
import proofs.«165216_j71700184039591_1_alg».proof.Proof.Gen.ReferenceIdeal
import proofs.«165216_j71700184039591_1_alg».proof.Proof.Gen.Pre_finite_inputs
import proofs.«165216_j71700184039591_1_alg».proof.Proof.Bits.MainRun
import proofs.«165216_j71700184039591_1_alg».proof.Proof.Ideal.Result
import proofs.«165216_j71700184039591_1_alg».proof.Proof.RefValue
import Idealize.ShloMosaic.Adequacy
import Idealize.ShloMosaic.Init

noncomputable section

namespace Cert.Proof

open Idealize.ShloMosaic Idealize.ShloMosaic.TcCoe Idealize.SL.Sem

/-! ## The two programs' host vocabulary is one -/

/-- The edge aggregation is the same operation in both programs: the same gather and scatter-add of the same shapes. -/
theorem agg_eq (src dst : (⟨Cert.KernelIdeal.S1200000, .i32⟩ : BufTy).Contents (Elt Ideal))
    (x : (⟨Cert.KernelIdeal.S100000x64, .f32⟩ : BufTy).Contents (Elt Ideal)) :
    Cert.KernelIdeal.Hand.agg src dst x = Cert.ReferenceIdeal.RefValue.agg src dst x := rfl

/-- So is the clamped in-degree. -/
theorem degMax_eq (dst : (⟨Cert.KernelIdeal.S1200000, .i32⟩ : BufTy).Contents (Elt Ideal)) :
    Cert.KernelIdeal.Hand.degMax dst = Cert.ReferenceIdeal.RefValue.degMax dst := rfl

/-! ## The claims -/

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run to the end, the kernel program's result `kernelRes` of
    the arguments and the reference's `refRes` of them: one function. -/
theorem algebraic : Cert.algebraic_KernelIdeal_ReferenceIdeal := by
  intro m ρ m' ρ' _ hagree
  refine ⟨fun c => Cert.KernelIdeal.Hand.W4 m c Cert.KernelIdeal.main_v36_1, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  refine (Cert.ReferenceIdeal.RefValue.res_eq m' c).trans ?_
  rw [h0, h1, h2, h3, h4, h5, h6, h7, h8]
  refine Eq.trans ?_ (Cert.KernelIdeal.Hand.result_eq m c).symm
  have hagg : Cert.ReferenceIdeal.RefValue.agg (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Hand.agg (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) :=
    funext fun x => (agg_eq _ _ x).symm
  rw [hagg, ← degMax_eq]
  exact (Cert.Spec.kernelRes_eq_refRes _ _ (Cert.KernelIdeal.Hand.degMax_ne_zero _) _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
